-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x96 : Shape := ⟨3, ![16, 256, 96]⟩
abbrev S96x128 : Shape := ⟨2, ![96, 128]⟩
abbrev S128 : Shape := ⟨1, ![128]⟩
abbrev S384x128 : Shape := ⟨2, ![384, 128]⟩
abbrev S256x128 : Shape := ⟨2, ![256, 128]⟩
abbrev S_ : Shape := ⟨0, ![]⟩

class Facts : Prop where
  bcast_S_S16x256x96 : S_.BroadcastsInDim S16x256x96 (![] : Fin 0 → Fin S16x256x96.rank)
  reducesTo_S16x256x96_S_d0_1_2 : S16x256x96.ReducesTo [0, 1, 2] S_
  h_S_ : 0 < S_.numel
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S256x128 .f32) (main_arg8 : FVec F S96x128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S96x128 .f32 := Host.absf main_arg8
  let main_cst_14 : FVec F S_ .f32 := constant S_ .f32 0x7F800000#32
  let main_v40 : FVec F S96x128 .f32 := broadcastInDim S96x128 ![] bcast_S_S96x128 main_cst_14
  let main_v41 : IVec S96x128 1 := cmpf .olt main_v39 main_v40
  let main_c_15 : IVec S_ 1 := constantI S_ 1 1#1
  let main_v42 : IVec S_ 1 := (fun x v => Host.reduce IntOp.andi x v reducesTo_S96x128_S_d0_1 h_S_) main_v41 main_c_15
  let main_v43 : IVec S_ 1 := andi main_v38 main_v42
  main_v43

def fn_part1 {F : FTy → Type} [FloatOps F] (main_arg4 : FVec F S128 .f32) (main_arg5 : FVec F S128 .f32) (main_arg6 : FVec F S128 .f32) (main_arg7 : FVec F S256x128 .f32) (main_arg8 : FVec F S96x128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S16x256x96 .f32) (main_arg1 : FVec F S96x128 .f32) (main_arg2 : FVec F S128 .f32) (main_arg3 : FVec F S384x128 .f32) (main_arg4 : FVec F S128 .f32) (main_arg5 : FVec F S128 .f32) (main_arg6 : FVec F S128 .f32) (main_arg7 : FVec F S256x128 .f32) (main_arg8 : FVec F S96x128 .f32) : IVec S_ 1 :=
  let main_v0 : FVec F S16x256x96 .f32 := Host.absf main_arg0
  let main_cst : FVec F S_ .f32 := constant S_ .f32 0x7F800000#32
  let main_v1 : FVec F S16x256x96 .f32 := broadcastInDim S16x256x96 ![] bcast_S_S16x256x96 main_cst
  let main_v2 : IVec S16x256x96 1 := cmpf .olt main_v0 main_v1
  let main_c : IVec S_ 1 := constantI S_ 1 1#1
  let main_v3 : IVec S_ 1 := (fun x v => Host.reduce IntOp.andi x v reducesTo_S16x256x96_S_d0_1_2 h_S_) main_v2 main_c
  let main_v4 : FVec F S96x128 .f32 := Host.absf main_arg1
  let main_cst_0 : FVec F S_ .f32 := constant S_ .f32 0x7F800000#32
  let main_v5 : FVec F S96x128 .f32 := broadcastInDim S96x128 ![] bcast_S_S96x128 main_cst_0
  let main_v6 : IVec S96x128 1 := cmpf .olt main_v4 main_v5
  let main_c_1 : IVec S_ 1 := constantI S_ 1 1#1
  let main_v7 : IVec S_ 1 := (fun x v => Host.reduce IntOp.andi x v reducesTo_S96x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_arg7 main_arg8 main_v13 main_v16
-- ==== Kernel.lean ====
abbrev S16x256x96 : Shape := ⟨3, ![16, 256, 96]⟩
abbrev S96x128 : Shape := ⟨2, ![96, 128]⟩
abbrev S128 : Shape := ⟨1, ![128]⟩
abbrev S384x128 : Shape := ⟨2, ![384, 128]⟩
abbrev S256x128 : Shape := ⟨2, ![256, 128]⟩
abbrev S128x128 : Shape := ⟨2, ![128, 128]⟩
abbrev S1x128 : Shape := ⟨2, ![1, 128]⟩
abbrev S16x256x96x128 : Shape := ⟨4, ![16, 256, 96, 128]⟩
abbrev S1x128x96 : Shape := ⟨3, ![1, 128, 96]⟩
abbrev S1x128x96x128 : Shape := ⟨4, ![1, 128, 96, 128]⟩
abbrev S128x96 : Shape := ⟨2, ![128, 96]⟩
abbrev S128x1x128 : Shape := ⟨3, ![128, 1, 128]⟩
abbrev S1x96x128 : Shape := ⟨3, ![1, 96, 128]⟩
abbrev S128x96x128 : Shape := ⟨3, ![128, 96, 128]⟩
abbrev S128x96x1 : Shape := ⟨3, ![128, 96, 1]⟩
abbrev S1x1x128 : Shape := ⟨3, ![1, 1, 128]⟩

abbrev nBuf : Space → Nat
  | .hbm => 21
  | .vmem => 12
  | .smem => 0
  | _ => 0

abbrev bufTy : (tb : Table) → Fin (tcTables nBuf tb) → BufTy
  | .hbm, ⟨0, _⟩ => ⟨S16x256x96, .f32⟩
  | .hbm, ⟨1, _⟩ => ⟨S96x128, .f32⟩
  | .hbm, ⟨2, _⟩ => ⟨S128, .f32⟩
  | .hbm, ⟨3, _⟩ => ⟨S384x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S96x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S256x128, .f32⟩
  | .hbm, ⟨13, _⟩ => ⟨S96x128, .f32⟩
  | .hbm, ⟨14, _⟩ => ⟨S1x128, .f32⟩
  | .hbm, ⟨15, _⟩ => ⟨S96x128, .f32⟩
  | .hbm, ⟨16, _⟩ => ⟨S96x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S16x256x96x128, .f32⟩
  | .local _ .vmem, ⟨0, _⟩ => ⟨S1x128x96, .f32⟩
  | .local _ .vmem, ⟨1, _⟩ => ⟨S1x128x96, .f32⟩
  | .local _ .vmem, ⟨2, _⟩ => ⟨S96x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S96x128, .f32⟩
  | .local _ .vmem, ⟨8, _⟩ => ⟨S1x128, .f32⟩
  | .local _ .vmem, ⟨9, _⟩ => ⟨S1x128, .f32⟩
  | .local _ .vmem, ⟨10, _⟩ => ⟨S1x128x96x128, .f32⟩
  | .local _ .vmem, ⟨11, _⟩ => ⟨S1x128x96x128, .f32⟩
  | _, _ => ⟨S16x256x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x96x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S384x128_S128x128_0_0 : S384x128.Slices ![0, 0] S128x128
  slices_S384x128_S128x128_128_0 : S384x128.Slices ![128, 0] S128x128
  slices_S384x128_S128x128_256_0 : S384x128.Slices ![256, 0] S128x128
  bcast_S128_S1x128_1 : S128.BroadcastsInDim S1x128 (![1] : Fin 1 → Fin S1x128.rank)
  bcast_S1x128_S96x128_0_1 : S1x128.BroadcastsInDim S96x128 (![0, 1] : Fin 2 → Fin S96x128.rank)
  shapeCasts_S128_S1x128 : S128.ShapeCasts S1x128
  inb_S1x128x96_S1x128x96_0_0_0 : ∀ a, (![0, 0, 0] : Fin 3 → Nat) a + S1x128x96.size a ≤ S1x128x96.size a
  h_S1x128x96 : 0 < S1x128x96.numel
  shapeCasts_S1x128x96_S128x96 : S1x128x96.ShapeCasts S128x96
  inb_S96x128_S96x128_0_0 : ∀ a, (![0, 0] : Fin 2 → Nat) a + S96x128.size a ≤ S96x128.size a
  h_S96x128 : 0 < S96x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S96x128_S96x128 : S96x128.ShapeCasts S96x128
  shapeCasts_S96x128_S1x96x128 : S96x128.ShapeCasts S1x96x128
  broadcasts_S128x1x128_S128x96x128 : S128x1x128.Broadcasts S128x96x128
  broadcasts_S1x96x128_S128x96x128 : S1x96x128.Broadcasts S128x96x128
  reduces_S128x96x128_S128x96 : S128x96x128.Reduces [2] S128x96
  shapeCasts_S128x96_S128x96x1 : S128x96.ShapeCasts S128x96x1
  broadcasts_S128x96x1_S128x96x128 : S128x96x1.Broadcasts S128x96x128
  shapeCasts_S1x128_S1x1x128 : S1x128.ShapeCasts S1x1x128
  broadcasts_S1x1x128_S128x96x128 : S1x1x128.Broadcasts S128x96x128
  inb_S1x128x96x128_S1x128x96x128_0_0_0_0 : ∀ a, (![0, 0, 0, 0] : Fin 4 → Nat) a + S1x128x96x128.size a ≤ S1x128x96x128.size a
  h_S1x128x96x128 : 0 < S1x128x96x128.numel
  shapeCasts_S1x128x96x128_S128x96x128 : S1x128x96x128.ShapeCasts S128x96x128
  shapeCasts_S128x96x128_S1x128x96x128 : S128x96x128.ShapeCasts S1x128x96x128
  dot_S256x128_S128x128_S256x128_1_0_0_1_n_n_wf : DotDims.WF S256x128 S128x128 S256x128 [1] [0] [0] [1] [] []
  dot_S96x128_S128x128_S96x128_1_0_0_1_n_n_wf : DotDims.WF S96x128 S128x128 S96x128 [1] [0] [0] [1] [] []
  dot_S128x96_S96x128_S128x128_1_0_0_1_n_n_wf : DotDims.WF S128x96 S96x128 S128x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x96.size a ≤ S16x256x96.size a
  hwx0_0 : ∀ i : grid0.Coords, EltTy.bits .f32 = 32 ∨ (Rect.block (s := S16x256x96) S1x128x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x128.size a ≤ S96x128.size a
  hwx0_1 : ∀ i : grid0.Coords, EltTy.bits .f32 = 32 ∨ (Rect.block (s := S96x128) S96x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S256x128.size a
  hwx0_4 : ∀ i : grid0.Coords, EltTy.bits .f32 = 32 ∨ (Rect.block (s := S256x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96x128.size a ≤ S96x128.size a
  hwx0_5 : ∀ i : grid0.Coords, EltTy.bits .f32 = 32 ∨ (Rect.block (s := S96x128) S96x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x96x128.size a ≤ S16x256x96x128.size a
  hwx0_8 : ∀ i : grid0.Coords, EltTy.bits .f32 = 32 ∨ (Rect.block (s := S16x256x96x128) S1x128x96x128.size (cc0_transform_8 i) (hinb0_8 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S96x128_S128x128_S96x128_1_0_0_1_n_n : DotDims S96x128 S128x128 S96x128 where
  lhsContracting := [1]
  rhsContracting := [0]
  lhsNonContracting := [0]
  rhsNonContracting := [1]
  lhsBatch := []
  rhsBatch := []
  wf := dot_S96x128_S128x128_S96x128_1_0_0_1_n_n_wf
def dot_S128x96_S96x128_S128x128_1_0_0_1_n_n : DotDims S128x96 S96x128 S128x128 where
  lhsContracting := [1]
  rhsContracting := [0]
  lhsNonContracting := [0]
  rhsNonContracting := [1]
  lhsBatch := []
  rhsBatch := []
  wf := dot_S128x96_S96x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S1x128x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S96x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x128x96x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x256x96 : Shape := ⟨3, ![16, 256, 96]⟩
abbrev S96x128 : Shape := ⟨2, ![96, 128]⟩
abbrev S128 : Shape := ⟨1, ![128]⟩
abbrev S384x128 : Shape := ⟨2, ![384, 128]⟩
abbrev S256x128 : Shape := ⟨2, ![256, 128]⟩
abbrev S16x256x128 : Shape := ⟨3, ![16, 256, 128]⟩
abbrev S1x1x128 : Shape := ⟨3, ![1, 1, 128]⟩
abbrev S128x128 : Shape := ⟨2, ![128, 128]⟩
abbrev S16x256x1x128 : Shape := ⟨4, ![16, 256, 1, 128]⟩
abbrev S1x256x1x128 : Shape := ⟨4, ![1, 256, 1, 128]⟩
abbrev S1x1x96x128 : Shape := ⟨4, ![1, 1, 96, 128]⟩
abbrev S16x256x96x128 : Shape := ⟨4, ![16, 256, 96, 128]⟩
abbrev S1x1x1x128 : Shape := ⟨4, ![1, 1, 1, 128]⟩
abbrev S_ : Shape := ⟨0, ![]⟩
abbrev S16x256x96x1 : Shape := ⟨4, ![16, 256, 96, 1]⟩

abbrev nBuf : Space → Nat
  | .hbm => 62
  | .vmem => 0
  | .smem => 0
  | _ => 0

abbrev bufTy : (tb : Table) → Fin (tcTables nBuf tb) → BufTy
  | .hbm, ⟨0, _⟩ => ⟨S16x256x96, .f32⟩
  | .hbm, ⟨1, _⟩ => ⟨S96x128, .f32⟩
  | .hbm, ⟨2, _⟩ => ⟨S128, .f32⟩
  | .hbm, ⟨3, _⟩ => ⟨S384x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S96x128, .f32⟩
  | .hbm, ⟨9, _⟩ => ⟨S16x256x128, .f32⟩
  | .hbm, ⟨10, _⟩ => ⟨S1x1x128, .f32⟩
  | .hbm, ⟨11, _⟩ => ⟨S16x256x128, .f32⟩
  | .hbm, ⟨12, _⟩ => ⟨S16x256x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S16x256x128, .f32⟩
  | .hbm, ⟨17, _⟩ => ⟨S16x256x1x128, .f32⟩
  | .hbm, ⟨18, _⟩ => ⟨S256x128, .f32⟩
  | .hbm, ⟨19, _⟩ => ⟨S1x256x1x128, .f32⟩
  | .hbm, ⟨20, _⟩ => ⟨S16x256x1x128, .f32⟩
  | .hbm, ⟨21, _⟩ => ⟨S16x256x1x128, .f32⟩
  | .hbm, ⟨22, _⟩ => ⟨S96x128, .f32⟩
  | .hbm, ⟨23, _⟩ => ⟨S1x1x96x128, .f32⟩
  | .hbm, ⟨24, _⟩ => ⟨S16x256x96x128, .f32⟩
  | .hbm, ⟨25, _⟩ => ⟨S16x256x96x128, .f32⟩
  | .hbm, ⟨26, _⟩ => ⟨S16x256x96x128, .f32⟩
  | .hbm, ⟨27, _⟩ => ⟨S1x1x1x128, .f32⟩
  | .hbm, ⟨28, _⟩ => ⟨S16x256x96x128, .f32⟩
  | .hbm, ⟨29, _⟩ => ⟨S16x256x96x128, .f32⟩
  | .hbm, ⟨30, _⟩ => ⟨S_, .f32⟩
  | .hbm, ⟨31, _⟩ => ⟨S16x256x96x128, .f32⟩
  | .hbm, ⟨32, _⟩ => ⟨S16x256x96x128, .f32⟩
  | .hbm, ⟨33, _⟩ => ⟨S_, .f32⟩
  | .hbm, ⟨34, _⟩ => ⟨S16x256x96, .f32⟩
  | .hbm, ⟨35, _⟩ => ⟨S16x256x96x1, .f32⟩
  | .hbm, ⟨36, _⟩ => ⟨S_, .f32⟩
  | .hbm, ⟨37, _⟩ => ⟨S16x256x96x1, .f32⟩
  | .hbm, ⟨38, _⟩ => ⟨S16x256x96x1, .f32⟩
  | .hbm, ⟨39, _⟩ => ⟨S16x256x96x128, .f32⟩
  | .hbm, ⟨40, _⟩ => ⟨S16x256x96x128, .f32⟩
  | .hbm, ⟨41, _⟩ => ⟨S16x256x96x128, .f32⟩
  | .hbm, ⟨42, _⟩ => ⟨S_, .f32⟩
  | .hbm, ⟨43, _⟩ => ⟨S16x256x96, .f32⟩
  | .hbm, ⟨44, _⟩ => ⟨S16x256x96x1, .f32⟩
  | .hbm, ⟨45, _⟩ => ⟨S_, .f32⟩
  | .hbm, ⟨46, _⟩ => ⟨S16x256x96x1, .f32⟩
  | .hbm, ⟨47, _⟩ => ⟨S16x256x96x1, .f32⟩
  | .hbm, ⟨48, _⟩ => ⟨S16x256x96x128, .f32⟩
  | .hbm, ⟨49, _⟩ => ⟨S16x256x96x128, .f32⟩
  | .hbm, ⟨50, _⟩ => ⟨S_, .f32⟩
  | .hbm, ⟨51, _⟩ => ⟨S16x256x96x1, .f32⟩
  | .hbm, ⟨52, _⟩ => ⟨S16x256x96x1, .f32⟩
  | .hbm, ⟨53, _⟩ => ⟨S16x256x96x1, .f32⟩
  | .hbm, ⟨54, _⟩ => ⟨S16x256x96x128, .f32⟩
  | .hbm, ⟨55, _⟩ => ⟨S16x256x96x128, .f32⟩
  | .hbm, ⟨56, _⟩ => ⟨S1x1x1x128, .f32⟩
  | .hbm, ⟨57, _⟩ => ⟨S16x256x96x128, .f32⟩
  | .hbm, ⟨58, _⟩ => ⟨S16x256x96x128, .f32⟩
  | .hbm, ⟨59, _⟩ => ⟨S1x1x1x128, .f32⟩
  | .hbm, ⟨60, _⟩ => ⟨S16x256x96x128, .f32⟩
  | .hbm, ⟨61, _⟩ => ⟨S16x256x96x128, .f32⟩
  | _, _ => ⟨S16x256x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_cst : Ref sig .tc := ⟨.hbm, 30, rfl⟩
abbrev main_call0_v0 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x256x128_0_1_2 : S1x1x128.BroadcastsInDim S16x256x128 (![0, 1, 2] : Fin 3 → Fin S16x256x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  bcast_S16x256x128_S16x256x1x128_0_1_3 : S16x256x128.BroadcastsInDim S16x256x1x128 (![0, 1, 3] : Fin 3 → Fin S16x256x1x128.rank)
  bcast_S256x128_S1x256x1x128_1_3 : S256x128.BroadcastsInDim S1x256x1x128 (![1, 3] : Fin 2 → Fin S1x256x1x128.rank)
  bcast_S1x256x1x128_S16x256x1x128_0_1_2_3 : S1x256x1x128.BroadcastsInDim S16x256x1x128 (![0, 1, 2, 3] : Fin 4 → Fin S16x256x1x128.rank)
  bcast_S96x128_S1x1x96x128_2_3 : S96x128.BroadcastsInDim S1x1x96x128 (![2, 3] : Fin 2 → Fin S1x1x96x128.rank)
  bcast_S16x256x1x128_S16x256x96x128_0_1_2_3 : S16x256x1x128.BroadcastsInDim S16x256x96x128 (![0, 1, 2, 3] : Fin 4 → Fin S16x256x96x128.rank)
  bcast_S1x1x96x128_S16x256x96x128_0_1_2_3 : S1x1x96x128.BroadcastsInDim S16x256x96x128 (![0, 1, 2, 3] : Fin 4 → Fin S16x256x96x128.rank)
  bcast_S128_S1x1x1x128_3 : S128.BroadcastsInDim S1x1x1x128 (![3] : Fin 1 → Fin S1x1x1x128.rank)
  bcast_S1x1x1x128_S16x256x96x128_0_1_2_3 : S1x1x1x128.BroadcastsInDim S16x256x96x128 (![0, 1, 2, 3] : Fin 4 → Fin S16x256x96x128.rank)
  bcast_S_S16x256x96x128 : S_.BroadcastsInDim S16x256x96x128 (![] : Fin 0 → Fin S16x256x96x128.rank)
  reducesTo_S16x256x96x128_S16x256x96_d3 : S16x256x96x128.ReducesTo [3] S16x256x96
  h_S_ : 0 < S_.numel
  bcast_S16x256x96_S16x256x96x1_0_1_2 : S16x256x96.BroadcastsInDim S16x256x96x1 (![0, 1, 2] : Fin 3 → Fin S16x256x96x1.rank)
  bcast_S_S16x256x96x1 : S_.BroadcastsInDim S16x256x96x1 (![] : Fin 0 → Fin S16x256x96x1.rank)
  bcast_S16x256x96x1_S16x256x96x128_0_1_2_3 : S16x256x96x1.BroadcastsInDim S16x256x96x128 (![0, 1, 2, 3] : Fin 4 → Fin S16x256x96x128.rank)
  dot_S16x256x96_S96x128_S16x256x128_2_0_01_1_n_n_wf : DotDims.WF S16x256x96 S96x128 S16x256x128 [2] [0] [0, 1] [1] [] []
  dot_S16x256x128_S128x128_S16x256x128_2_0_01_1_n_n_wf : DotDims.WF S16x256x128 S128x128 S16x256x128 [2] [0] [0, 1] [1] [] []
  dot_S256x128_S128x128_S256x128_1_0_0_1_n_n_wf : DotDims.WF S256x128 S128x128 S256x128 [1] [0] [0] [1] [] []
  dot_S96x128_S128x128_S96x128_1_0_0_1_n_n_wf : DotDims.WF S96x128 S128x128 S96x128 [1] [0] [0] [1] [] []

variable [Facts₀]

def dot_S16x256x96_S96x128_S16x256x128_2_0_01_1_n_n : DotDims S16x256x96 S96x128 S16x256x128 where
  lhsContracting := [2]
  rhsContracting := [0]
  lhsNonContracting := [0, 1]
  rhsNonContracting := [1]
  lhsBatch := []
  rhsBatch := []
  wf := dot_S16x256x96_S96x128_S16x256x128_2_0_01_1_n_n_wf
def dot_S16x256x128_S128x128_S16x256x128_2_0_01_1_n_n : DotDims S16x256x128 S128x128 S16x256x128 where
  lhsContracting := [2]
  rhsContracting := [0]
  lhsNonContracting := [0, 1]
  rhsNonContracting := [1]
  lhsBatch := []
  rhsBatch := []
  wf := dot_S16x256x128_S128x128_S16x256x128_2_0_01_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S96x128_S128x128_S96x128_1_0_0_1_n_n : DotDims S96x128 S128x128 S96x128 where
  lhsContracting := [1]
  rhsContracting := [0]
  lhsNonContracting := [0]
  rhsNonContracting := [1]
  lhsBatch := []
  rhsBatch := []
  wf := dot_S96x128_S128x128_S96x128_1_0_0_1_n_n_wf

class Facts : Prop extends Facts₀ where

variable [Facts]
-- ==== Proof.RowMoments.lean ====
/-
  Row statistics on the extended reals.

  A layer normalisation takes, for a row `h` of 128 entries, its mean and its variance. One program
  takes the variance as the mean of the squares less the square of the mean, cut off below at zero,
  with the division by 128 written as a product with the binary fraction `2⁻⁷`; the other takes it
  as the mean of the squared deviations, dividing by `128`. On real numbers these agree:

    (1/n) Σ (hₖ − μ)² = (1/n) Σ hₖ² − μ²,   μ = (1/n) Σ hₖ,

  and the left side is a sum of squares, so the cut at zero changes nothing. On the extended reals
  the identity needs every `hₖ` to be a real number (it distributes a product over a difference),
  which is what `IsReal` records; sums, products and maxima with zero of reals are real.
-/
import Idealize.ShloMosaic.PureOps.Ideal
import Idealize.ShloMosaic.PureOps.Ideal.Laws

noncomputable section

namespace Cert.RowMoments

open Idealize.ShloMosaic

/-! ## Extended reals that are real numbers -/

/-- The extended real `x` is a real number. -/
def IsReal (x : EReal) : Prop := ∃ r : ℝ, x = (r : EReal)

theorem IsReal.zero : IsReal 0 := ⟨0, rfl⟩

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max_zero {x : EReal} (hx : IsReal x) : IsReal (max x 0) := by
  rcases le_total x 0 with h | h
  · rw [max_eq_right h]; exact IsReal.zero
  · rw [max_eq_left h]; exact hx

theorem IsReal.sum {ι : Type} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The coercion of the reals commutes with finite sums. -/
theorem coe_sum {ι : Type} (s : Finset ι) (r : ι → ℝ) :
    (∑ i ∈ s, (r i : EReal)) = ((∑ i ∈ s, r i : ℝ) : EReal) := by
  classical
  induction s using Finset.induction_on with
  | empty => rw [Finset.sum_empty, Finset.sum_empty]; rfl
  | insert a s ha ih => rw [Finset.sum_insert ha, Finset.sum_insert ha, ih, EReal.coe_add]

/-- An extended real whose absolute value `max x (−x)` lies below `+∞` is a real number. -/
theorem isReal_of_abs_lt_top {x : EReal} (h : max x (-x) < ⊤) : IsReal x := by
  induction x using EReal.rec with
  | bot => exact absurd h (by simp)
  | coe r => exact ⟨r, rfl⟩
  | top => exact absurd h (by simp)

/-! ## The three literal words -/

/-- The word `0x43000000` is the real number 128. -/
theorem ofBits_128 : Ideal.ofBits .f32 0x43000000#32 = ((128 : ℝ) : EReal) := by
  simp [Ideal.ofBits, Ideal.ieee, -EReal.coe_mul]; norm_num

/-- The word `0x3C000000` is the binary fraction 2⁻⁷ = 1/128, exactly. -/
theorem ofBits_inv128 : Ideal.ofBits .f32 0x3C000000#32 = ((1 / 128 : ℝ) : EReal) := by
  simp [Ideal.ofBits, Ideal.ieee, -EReal.coe_mul]; norm_num

/-- The word `0x7F800000` is `+∞`. -/
theorem ofBits_inf : Ideal.ofBits .f32 0x7F800000#32 = ⊤ := by
  simp [Ideal.ofBits, Ideal.ieee]

/-! ## Mean and variance of a row, both ways -/

section Row

variable (h : Fin 128 → EReal)

/-- The mean as a product with 2⁻⁷. -/
def mean : EReal := (∑ k, h k) * Ideal.ofBits .f32 0x3C000000#32

/-- The variance as mean of squares less squared mean, cut off below at zero. -/
def varCut : EReal :=
  max ((∑ k, h k * h k) * Ideal.ofBits .f32 0x3C000000#32 - mean h * mean h) 0

/-- The mean as a quotient by 128. -/
def meanQuot : EReal := Ideal.div (∑ k, h k) (Ideal.ofBits .f32 0x43000000#32)

/-- The variance as the mean (a quotient by 128) of the squared deviations from the mean. -/
def varDev : EReal :=
  Ideal.div (∑ k, (h k - meanQuot h) * (h k - meanQuot h)) (Ideal.ofBits .f32 0x43000000#32)

/-- Dividing by 128 is multiplying by 2⁻⁷, on every extended real. -/
theorem meanQuot_eq : meanQuot h = mean h := by
  unfold meanQuot mean
  rw [ofBits_128, ofBits_inv128, Ideal.div_coe (by norm_num)]

/-- For a row of real numbers the two variances agree. -/
theorem varDev_eq (hr : ∀ k, IsReal (h k)) : varDev h = varCut h := by
  choose r hr using hr
  obtain rfl : h = fun k => (r k : EReal) := funext hr
  unfold varDev varCut
  rw [meanQuot_eq]
  unfold mean
  rw [ofBits_128, ofBits_inv128, Ideal.div_coe (by norm_num)]
  simp only [coe_sum, ← EReal.coe_mul, ← EReal.coe_sub]
  -- both sides are now coercions of real numbers
  have key : (∑ k, (r k - (∑ k, r k) * (1 / 128)) * (r k - (∑ k, r k) * (1 / 128))) * (1 / 128)
      = (∑ k, r k * r k) * (1 / 128) - (∑ k, r k) * (1 / 128) * ((∑ k, r k) * (1 / 128)) := by
    have e : ∀ k, (r k - (∑ k, r k) * (1 / 128)) * (r k - (∑ k, r k) * (1 / 128))
        = r k * r k - 2 * ((∑ k, r k) * (1 / 128)) * r k
          + (∑ k, r k) * (1 / 128) * ((∑ k, r k) * (1 / 128)) := fun k => by ring
    simp only [e, Finset.sum_add_distrib, Finset.sum_sub_distrib, ← Finset.mul_sum, Finset.sum_const,
      Finset.card_univ, Fintype.card_fin, nsmul_eq_mul]
    push_cast
    ring
  have nonneg : 0 ≤ (∑ k, (r k - (∑ k, r k) * (1 / 128)) * (r k - (∑ k, r k) * (1 / 128))) * (1 / 128) :=
    mul_nonneg (Finset.sum_nonneg fun k _ => mul_self_nonneg _) (by norm_num)
  rw [← key, max_eq_left (EReal.coe_nonneg.mpr nonneg)]

end Row

end Cert.RowMoments

end
-- ==== Proof.LayerSpec.lean ====
/-
  The fused layer, as mathematics.

  For a batch `b`, a node `n` and a time step `t` the layer forms a row of 128 hidden activations

    h_k = max( Σ_h (Σ_j x[b,n,j]·Wp[j,h] + bp[h])·W1[h,k] + u_k + v_k , 0 ),

  where `u` is the node's embedding pushed through the second block of the weight matrix and `v` the
  time step's embedding pushed through the third block plus the bias, and then normalises the row:

    out_k = (h_k − μ)·rsqrt(σ² + ε)·γ_k + β_k.

  `normed` takes μ and σ² as `RowMoments.mean` and `RowMoments.varCut`; `normedDev` takes them as
  `meanQuot` and `varDev`. For a row of real numbers they are the same number (`normedDev_eq`), and a
  row of hidden activations built from real inputs is a row of real numbers (`hidden_isReal`).
-/
import proofs.«154208_j19224273616920_2_alg».proof.Proof.RowMoments
import Idealize.ShloMosaic.Lib.ValueIdx

noncomputable section

namespace Cert.LayerSpec

open Idealize.ShloMosaic Idealize.ShloMosaic.ValueIdx Cert.RowMoments

/-- One hidden activation of a row: the projected input through the first weight block, plus the
    node's and the time step's contributions, cut off below at zero. -/
def hidden (xr : Fin 96 → EReal) (Wp : Fin 96 → Fin 128 → EReal) (bp : Fin 128 → EReal)
    (W1 : Fin 128 → Fin 128 → EReal) (u v : Fin 128 → EReal) (k : Fin 128) : EReal :=
  max (((∑ h : Fin 128, ((∑ j : Fin 96, xr j * Wp j h) + bp h) * W1 h k) + u k) + v k) 0

/-- Real inputs give a real hidden activation. -/
theorem hidden_isReal {xr : Fin 96 → EReal} {Wp : Fin 96 → Fin 128 → EReal} {bp : Fin 128 → EReal}
    {W1 : Fin 128 → Fin 128 → EReal} {u v : Fin 128 → EReal}
    (hx : ∀ j, IsReal (xr j)) (hWp : ∀ j h, IsReal (Wp j h)) (hbp : ∀ h, IsReal (bp h))
    (hW1 : ∀ h k, IsReal (W1 h k)) (hu : ∀ k, IsReal (u k)) (hv : ∀ k, IsReal (v k)) (k : Fin 128) :
    IsReal (hidden xr Wp bp W1 u v k) :=
  IsReal.max_zero
    (((IsReal.sum _ _ fun h _ =>
        ((IsReal.sum _ _ fun j _ => (hx j).mul (hWp j h)).add (hbp h)).mul (hW1 h k)).add (hu k)).add (hv k))

/-- The row normalised, its variance taken as mean of squares less squared mean, cut at zero. -/
def normed (hv : Fin 128 → EReal) (g be : EReal) (k : Fin 128) : EReal :=
  (hv k - mean hv) * Ideal.rsqrt (varCut hv + Ideal.ofBits .f32 0x3727C5AC#32) * g + be

/-- The row normalised, its variance taken as the mean of the squared deviations. -/
def normedDev (hv : Fin 128 → EReal) (g be : EReal) (k : Fin 128) : EReal :=
  (hv k - meanQuot hv) * Ideal.rsqrt (varDev hv + Ideal.ofBits .f32 0x3727C5AC#32) * g + be

/-- On a row of real numbers the two normalisations agree. -/
theorem normedDev_eq (hv : Fin 128 → EReal) (hr : ∀ k, IsReal (hv k)) (g be : EReal) (k : Fin 128) :
    normedDev hv g be k = normed hv g be k := by
  unfold normedDev normed
  rw [meanQuot_eq, varDev_eq hv hr]

/-- Rows `0 … 127`, `128 … 255` and `256 … 383` of the stacked weight matrix. -/
def rowA (h : Fin 128) : Fin 384 := ⟨h.val, by have := h.isLt; omega⟩
def rowB (h : Fin 128) : Fin 384 := ⟨128 + h.val, by have := h.isLt; omega⟩
def rowC (h : Fin 128) : Fin 384 := ⟨256 + h.val, by have := h.isLt; omega⟩

section Whole

variable (X : (⟨3, ![16, 256, 96]⟩ : Shape).Idx → EReal) (Wp : (⟨2, ![96, 128]⟩ : Shape).Idx → EReal)
  (bp : (⟨1, ![128]⟩ : Shape).Idx → EReal) (Wf : (⟨2, ![384, 128]⟩ : Shape).Idx → EReal)
  (bf γ β : (⟨1, ![128]⟩ : Shape).Idx → EReal) (NE : (⟨2, ![256, 128]⟩ : Shape).Idx → EReal)
  (TE : (⟨2, ![96, 128]⟩ : Shape).Idx → EReal)

/-- The node's contribution: its embedding through the second block of the weights. -/
def nodeTerm (n : Fin 256) (k : Fin 128) : EReal := ∑ h : Fin 128, NE (ix2 n h) * Wf (ix2 (rowB h) k)

/-- The time step's contribution: its embedding through the third block of the weights, plus the bias. -/
def timeTerm (t : Fin 96) (k : Fin 128) : EReal := (∑ h : Fin 128, TE (ix2 t h) * Wf (ix2 (rowC h) k)) + bf (ix1 k)

/-- The hidden row at batch `b`, node `n`, time `t`. -/
def hiddenRow (b : Fin 16) (n : Fin 256) (t : Fin 96) : Fin 128 → EReal :=
  hidden (fun j => X (ix3 b n j)) (fun j h => Wp (ix2 j h)) (fun h => bp (ix1 h))
    (fun h k => Wf (ix2 (rowA h) k)) (nodeTerm Wf NE n) (timeTerm Wf bf TE t)

/-- The layer's output at `(b, n, t, k)`. -/
def outAt (b : Fin 16) (n : Fin 256) (t : Fin 96) (k : Fin 128) : EReal :=
  normed (hiddenRow X Wp bp Wf bf NE TE b n t) (γ (ix1 k)) (β (ix1 k)) k

/-- The layer's output as one array. -/
def out : (⟨4, ![16, 256, 96, 128]⟩ : Shape).Idx → EReal :=
  fun i => outAt X Wp bp Wf bf γ β NE TE (i 0) (i 1) (i 2) (i 3)

/-- With every input a real number, every hidden activation is a real number. -/
theorem hiddenRow_isReal (hX : ∀ i, IsReal (X i)) (hWp : ∀ i, IsReal (Wp i)) (hbp : ∀ i, IsReal (bp i))
    (hWf : ∀ i, IsReal (Wf i)) (hbf : ∀ i, IsReal (bf i)) (hNE : ∀ i, IsReal (NE i)) (hTE : ∀ i, IsReal (TE i))
    (b : Fin 16) (n : Fin 256) (t : Fin 96) (k : Fin 128) : IsReal (hiddenRow X Wp bp Wf bf NE TE b n t k) :=
  hidden_isReal (fun _ => hX _) (fun _ _ => hWp _) (fun _ => hbp _) (fun _ _ => hWf _)
    (fun _ => IsReal.sum _ _ fun _ _ => (hNE _).mul (hWf _))
    (fun _ => (IsReal.sum _ _ fun _ _ => (hTE _).mul (hWf _)).add (hbf _)) k

end Whole

end Cert.LayerSpec

end
-- ==== Proof.LibAxisOps.lean ====
/-
  Unit axes inserted in the middle or at the end of a shape, and broadcasts along them, read at an
  index written by coordinates.

  A sum over the last axis kept as a unit axis (`[a, b] → [a, b, 1]`), a row vector placed under a
  new middle axis (`[a, b] → [a, 1, b]`), and the broadcasts that spread such unit axes back out
  (`[a, 1, b] → [a, c, b]`, `[1, c, b] → [a, c, b]`, `[a, b, 1] → [a, b, c]`, `[1, 1, b] → [a, c, b]`)
  each read one element of the operand: the one with the same coordinates off the unit axis and
  `0` on it. A shape cast keeps the row-major position; a broadcast keeps the coordinates of the
  non-unit axes.
-/
import Idealize.ShloMosaic.Lib.Pipeline.Value
import Idealize.ShloMosaic.Lib.ValueIdx

namespace Cert.AxisOps

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, b]` array broadcast to `[a, c, b]` reads, at `(i, t, j)`, the operand at `(i, 0, j)`. -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (t : Fin c) (j : Fin b) :
    broadcastTo ⟨3, ![a, c, b]⟩ v h (ix3 i t j) = v (ix3 i (0 : Fin 1) j) := by
  refine broadcastTo_apply v h (ix3 i t j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, t, j)`, the operand at `(0, t, j)`. -/
theorem broadcastTo_1cb_acb_apply {a c b : ℕ} (v : (⟨3, ![1, c, b]⟩ : Shape).Idx → α)
    (h : (⟨3, ![1, c, b]⟩ : Shape).Broadcasts ⟨3, ![a, c, b]⟩) (i : Fin a) (t : Fin c) (j : Fin b) :
    broadcastTo ⟨3, ![a, c, b]⟩ v h (ix3 i t j) = v (ix3 (0 : Fin 1) t j) := by
  refine broadcastTo_apply v h (ix3 i t j) (ix3 (0 : Fin 1) t j) fun ax => ?_
  match ax with
  | ⟨0, _⟩ => rfl
  | ⟨1, _⟩ =>
    show t.val = if c = 1 then 0 else t.val
    split
    · have := t.isLt; omega
    · rfl
  | ⟨2, _⟩ =>
    show j.val = if b = 1 then 0 else j.val
    split
    · have := j.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, b]` array broadcast to `[a, c, b]` reads, at `(i, t, j)`, the operand at `(0, 0, j)`. -/
theorem broadcastTo_11b_acb_apply {a c b : ℕ} (v : (⟨3, ![1, 1, b]⟩ : Shape).Idx → α)
    (h : (⟨3, ![1, 1, b]⟩ : Shape).Broadcasts ⟨3, ![a, c, b]⟩) (i : Fin a) (t : Fin c) (j : Fin b) :
    broadcastTo ⟨3, ![a, c, b]⟩ v h (ix3 i t j) = v (ix3 (0 : Fin 1) (0 : Fin 1) j) := by
  refine broadcastTo_apply v h (ix3 i t j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Cert.AxisOps
-- ==== Proof.KernelBody.lean ====
/-
  The kernel's body, read at an index.

  At one grid point the body sees a block of 128 nodes of one batch entry: the inputs `x0` (the
  nodes' 96 features), the projection `x1`, `x2`, the first weight block `x3`, the nodes' term `x4`,
  the time steps' term `x5` and the scale and shift `x6`, `x7`. Its two matrix products into a zero
  accumulator are plain sums over the contracted coordinate, its lane reductions are sums over the
  last coordinate, and every other operation either works element by element or re-lays a value
  along unit axes. So, at node `p`, time `t` and channel `k`, what it stores is the specification's
  `normed` of the row `hidden … ` built from row `p` of `x0` and `x4` and row `t` of `x5`.
-/
import proofs.«154208_j19224273616920_2_alg».proof.Proof.Gen.KernelIdeal.Skeleton
import proofs.«154208_j19224273616920_2_alg».proof.Proof.LayerSpec
import proofs.«154208_j19224273616920_2_alg».proof.Proof.LibAxisOps
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Cert.AxisOps Cert.LayerSpec Cert.RowMoments

/-! ## The two matrix products -/

theorem projDot_lhs_0 (i : S128x128.Idx) (q : dot_S128x96_S96x128_S128x128_1_0_0_1_n_n.contr.Idx) :
    (dot_S128x96_S96x128_S128x128_1_0_0_1_n_n.lhsIdx i q 0).val = (i 0).val := by
  unfold DotDims.lhsIdx
  rw [dif_neg (show ¬(0 : Fin S128x96.rank) ∈ dot_S128x96_S96x128_S128x128_1_0_0_1_n_n.lhsBatch by decide), dif_pos (show (0 : Fin S128x96.rank) ∈ dot_S128x96_S96x128_S128x128_1_0_0_1_n_n.lhsNonContracting by decide)]
  rfl
theorem projDot_lhs_1 (i : S128x128.Idx) (q : dot_S128x96_S96x128_S128x128_1_0_0_1_n_n.contr.Idx) :
    (dot_S128x96_S96x128_S128x128_1_0_0_1_n_n.lhsIdx i q 1).val = (q ⟨0, by decide⟩).val :=
  dot_S128x96_S96x128_S128x128_1_0_0_1_n_n.lhsIdx_val_of_single rfl i q
theorem projDot_rhs_0 (i : S128x128.Idx) (q : dot_S128x96_S96x128_S128x128_1_0_0_1_n_n.contr.Idx) :
    (dot_S128x96_S96x128_S128x128_1_0_0_1_n_n.rhsIdx i q 0).val = (q ⟨0, by decide⟩).val :=
  dot_S128x96_S96x128_S128x128_1_0_0_1_n_n.rhsIdx_val_of_single rfl i q
theorem projDot_rhs_1 (i : S128x128.Idx) (q : dot_S128x96_S96x128_S128x128_1_0_0_1_n_n.contr.Idx) :
    (dot_S128x96_S96x128_S128x128_1_0_0_1_n_n.rhsIdx i q 1).val = (i 1).val := by
  unfold DotDims.rhsIdx
  rw [dif_neg (show ¬(1 : Fin S96x128.rank) ∈ dot_S128x96_S96x128_S128x128_1_0_0_1_n_n.rhsBatch by decide), dif_pos (show (1 : Fin S96x128.rank) ∈ dot_S128x96_S96x128_S128x128_1_0_0_1_n_n.rhsNonContracting by decide)]
  rfl

theorem mixDot_lhs_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem mixDot_lhs_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem mixDot_rhs_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem mixDot_rhs_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- The input projection, [128, 96] by [96, 128] into a zero accumulator: entry (p, h) is the sum over the 96 features. -/
theorem projDot_apply (l : FVec Ideal S128x96 .f32) (r : FVec Ideal S96x128 .f32) (p h : Fin 128) :
    matmul dot_S128x96_S96x128_S128x128_1_0_0_1_n_n none l r (constant (F := Ideal) S128x128 .f32 0x00000000#32) (ix2 p h)
      = ∑ j : Fin 96, l (ix2 p j) * r (ix2 j h) := by
  simp only [matmul]
  rw [Ideal.matmul_constant_zero_apply, ← Equiv.sum_comp (ValueIdx.contrEquiv1 dot_S128x96_S96x128_S128x128_1_0_0_1_n_n 96 rfl rfl).symm]
  refine Finset.sum_congr rfl fun k _ => ?_
  have hk := ValueIdx.contrEquiv1_symm_val dot_S128x96_S96x128_S128x128_1_0_0_1_n_n 96 rfl rfl k
  have el : dot_S128x96_S96x128_S128x128_1_0_0_1_n_n.lhsIdx (ix2 p h) ((ValueIdx.contrEquiv1 dot_S128x96_S96x128_S128x128_1_0_0_1_n_n 96 rfl rfl).symm k) = ix2 p k := funext fun a => Fin.ext (by
    match a with
    | ⟨0, _⟩ => exact projDot_lhs_0 _ _
    | ⟨1, _⟩ => exact (projDot_lhs_1 _ _).trans hk)
  have er : dot_S128x96_S96x128_S128x128_1_0_0_1_n_n.rhsIdx (ix2 p h) ((ValueIdx.contrEquiv1 dot_S128x96_S96x128_S128x128_1_0_0_1_n_n 96 rfl rfl).symm k) = ix2 k h := funext fun a => Fin.ext (by
    match a with
    | ⟨0, _⟩ => exact (projDot_rhs_0 _ _).trans hk
    | ⟨1, _⟩ => exact projDot_rhs_1 _ _)
  rw [el, er]

/-- The product with the first weight block, [128, 128] by [128, 128] into a zero accumulator: entry (p, k) is the sum over the 128 channels. -/
theorem mixDot_apply (l : FVec Ideal S128x128 .f32) (r : FVec Ideal S128x128 .f32) (p h : Fin 128) :
    matmul dot_S128x128_S128x128_S128x128_1_0_0_1_n_n none l r (constant (F := Ideal) S128x128 .f32 0x00000000#32) (ix2 p h)
      = ∑ j : Fin 128, l (ix2 p j) * r (ix2 j h) := by
  simp only [matmul]
  rw [Ideal.matmul_constant_zero_apply, ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 p h) ((ValueIdx.contrEquiv1 dot_S128x128_S128x128_S128x128_1_0_0_1_n_n 128 rfl rfl).symm k) = ix2 p k := funext fun a => Fin.ext (by
    match a with
    | ⟨0, _⟩ => exact mixDot_lhs_0 _ _
    | ⟨1, _⟩ => exact (mixDot_lhs_1 _ _).trans hk)
  have er : dot_S128x128_S128x128_S128x128_1_0_0_1_n_n.rhsIdx (ix2 p h) ((ValueIdx.contrEquiv1 dot_S128x128_S128x128_S128x128_1_0_0_1_n_n 128 rfl rfl).symm k) = ix2 k h := funext fun a => Fin.ext (by
    match a with
    | ⟨0, _⟩ => exact (mixDot_rhs_0 _ _).trans hk
    | ⟨1, _⟩ => exact mixDot_rhs_1 _ _)
  rw [el, er]

/-! ## The sum over the last axis -/

/-- The sum over the channels of a [128, 96, 128] value, at node `p` and time `t`. -/
theorem laneSum_apply (v : FVec Ideal S128x96x128 .f32) (hφ : FKind.Formats .f32)
    (hacc : (0x00000000#32 : BitVec 32) = FKind.add.neutral .f32 hφ) (p : Fin 128) (t : Fin 96) :
    multiReduction .add [2] S128x96 v 0x00000000#32 reduces_S128x96x128_S128x96 hφ hacc (ix2 p t)
      = ∑ k : Fin 128, v (ix3 p t k) := by
  refine (Ideal.multiReduction_add_single v _ reduces_S128x96x128_S128x96 hφ hacc (ix2 p t)).trans ?_
  refine Finset.sum_congr rfl fun k _ => congrArg v ?_
  funext a
  apply Fin.ext
  match a with
  | ⟨0, _⟩ => rfl
  | ⟨1, _⟩ => rfl
  | ⟨2, _⟩ => rfl

/-! ## The payloads -/

section Payloads

variable (x0 : FVec Ideal S1x128x96 .f32) (x1 : FVec Ideal S96x128 .f32) (x2 : FVec Ideal S1x128 .f32)
  (x3 x4 : FVec Ideal S128x128 .f32) (x5 : FVec Ideal S96x128 .f32) (x6 x7 : FVec Ideal S1x128 .f32)

/-- The row of hidden activations the body forms at node `p` and time `t`, from the loaded blocks. -/
abbrev hrow (p : Fin 128) (t : Fin 96) : Fin 128 → EReal :=
  Cert.LayerSpec.hidden (fun j => x0 (ix3 (0 : Fin 1) p j)) (fun j h => x1 (ix2 j h)) (fun h => x2 (ix2 (0 : Fin 1) h))
    (fun h k => x3 (ix2 h k)) (fun k => x4 (ix2 p k)) (fun k => x5 (ix2 t k))

/-- The activations `h`: the body's first payload at `(p, t, k)`. -/
theorem act_apply (p : Fin 128) (t : Fin 96) (k : Fin 128) :
    k0_pay2 (F := Ideal) x0 x1 x2 x3 x4 x5 (ix3 p t k) = hrow x0 x1 x2 x3 x4 x5 p t k := by
  simp only [k0_pay2, hrow, Cert.LayerSpec.hidden, maximumf_apply, addf_apply, broadcast_apply, broadcastTo_a1b_acb_apply,
    shapeCast_ab_a1b_apply, shapeCast_self, mixDot_apply, projDot_apply, shapeCast_1ab_ab_apply,
    broadcastTo_1b_ab_apply, broadcastTo_1cb_acb_apply, shapeCast_ab_1ab_apply, Ideal.ofBits_def,
    Ideal.ofBits_zero_f32]

/-- The row's mean: the body's second payload at `(p, t, ·)`. -/
theorem mean_apply (p : Fin 128) (t : Fin 96) (u : Fin 1) :
    k0_pay3 (F := Ideal) x0 x1 x2 x3 x4 x5 (ix3 p t u) = mean (hrow x0 x1 x2 x3 x4 x5 p t) := by
  simp only [k0_pay3, mean, mulf_apply, broadcast_apply, shapeCast_ab_ab1_apply, Ideal.ofBits_def]
  exact congrArg₂ (· * ·)
    ((laneSum_apply _ _ _ p t).trans (Finset.sum_congr rfl fun k _ => act_apply x0 x1 x2 x3 x4 x5 p t k)) rfl

/-- The row's variance: the body's third payload at `(p, t, ·)`. -/
theorem var_apply (p : Fin 128) (t : Fin 96) (u : Fin 1) :
    k0_pay4 (F := Ideal) x0 x1 x2 x3 x4 x5 (ix3 p t u) = varCut (hrow x0 x1 x2 x3 x4 x5 p t) := by
  simp only [k0_pay4, varCut, maximumf_apply, subf_apply, mulf_apply, broadcast_apply, shapeCast_ab_ab1_apply,
    mean_apply, Ideal.ofBits_def, Ideal.ofBits_zero_f32]
  refine congrArg₂ max (congrArg₂ (· - ·) (congrArg₂ (· * ·) ?_ rfl) rfl) rfl
  refine (laneSum_apply _ _ _ p t).trans (Finset.sum_congr rfl fun k _ => ?_)
  rw [mulf_apply, act_apply]

/-- A reciprocal square root of a vector, read at an index. -/
theorem rsqrt_apply {s : Shape} (a : FVec Ideal s .f32) (i : s.Idx) : rsqrt a i = Ideal.rsqrt (a i) := rfl

/-- The stored value at `(·, p, t, k)`: the row normalised, scaled by `x6` and shifted by `x7`. -/
theorem store_apply (u : Fin 1) (p : Fin 128) (t : Fin 96) (k : Fin 128) :
    k0_pay1 (F := Ideal) (k0_pay2 x0 x1 x2 x3 x4 x5) (k0_pay3 x0 x1 x2 x3 x4 x5) (k0_pay4 x0 x1 x2 x3 x4 x5)
        (Scalar.ofBits .f32 0x3727C5AC#32) x6 x7 (ix4 u p t k)
      = normed (hrow x0 x1 x2 x3 x4 x5 p t) (x6 (ix2 (0 : Fin 1) k)) (x7 (ix2 (0 : Fin 1) k)) k := by
  simp only [k0_pay1, normed, shapeCast_abc_1abc_apply, addf_apply, mulf_apply, subf_apply, broadcast_apply,
    broadcastTo_ab1_abc_apply, broadcastTo_11b_acb_apply, shapeCast_ab_1ab_apply, shapeCast_self, rsqrt_apply,
    act_apply, mean_apply, var_apply, Ideal.ofBits_def]

end Payloads

end Cert.KernelIdeal.Body

end
-- ==== Proof.HostGlue.lean ====
/-
  What the region finds in the arrays the host wrote before it.

  Before the kernel is launched the program reshapes the projection bias, the scale and the shift to
  one row each, cuts the first block of rows out of the stacked weight matrix, and forms two small
  matrix products: the node embeddings through the second block of rows, and the time embeddings
  through the third block plus the broadcast bias. Read at an index these are the specification's
  `rowA` rows, `nodeTerm` and `timeTerm` of the argument arrays.
-/
import proofs.«154208_j19224273616920_2_alg».proof.Proof.Gen.KernelIdeal.Frame
import proofs.«154208_j19224273616920_2_alg».proof.Proof.LayerSpec
import Idealize.ShloMosaic.Lib.StableHlo.Run
import Idealize.ShloMosaic.Lib.ValueLayout
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo Cert.LayerSpec

/-! ## The host's two matrix products -/

theorem nodeDot_lhs_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem nodeDot_lhs_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
theorem nodeDot_rhs_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
theorem nodeDot_rhs_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

theorem timeDot_lhs_0 (i : S96x128.Idx) (q : dot_S96x128_S128x128_S96x128_1_0_0_1_n_n.contr.Idx) :
    (dot_S96x128_S128x128_S96x128_1_0_0_1_n_n.lhsIdx i q 0).val = (i 0).val := by
  unfold DotDims.lhsIdx
  rw [dif_neg (show ¬(0 : Fin S96x128.rank) ∈ dot_S96x128_S128x128_S96x128_1_0_0_1_n_n.lhsBatch by decide), dif_pos (show (0 : Fin S96x128.rank) ∈ dot_S96x128_S128x128_S96x128_1_0_0_1_n_n.lhsNonContracting by decide)]
  rfl
theorem timeDot_lhs_1 (i : S96x128.Idx) (q : dot_S96x128_S128x128_S96x128_1_0_0_1_n_n.contr.Idx) :
    (dot_S96x128_S128x128_S96x128_1_0_0_1_n_n.lhsIdx i q 1).val = (q ⟨0, by decide⟩).val :=
  dot_S96x128_S128x128_S96x128_1_0_0_1_n_n.lhsIdx_val_of_single rfl i q
theorem timeDot_rhs_0 (i : S96x128.Idx) (q : dot_S96x128_S128x128_S96x128_1_0_0_1_n_n.contr.Idx) :
    (dot_S96x128_S128x128_S96x128_1_0_0_1_n_n.rhsIdx i q 0).val = (q ⟨0, by decide⟩).val :=
  dot_S96x128_S128x128_S96x128_1_0_0_1_n_n.rhsIdx_val_of_single rfl i q
theorem timeDot_rhs_1 (i : S96x128.Idx) (q : dot_S96x128_S128x128_S96x128_1_0_0_1_n_n.contr.Idx) :
    (dot_S96x128_S128x128_S96x128_1_0_0_1_n_n.rhsIdx i q 1).val = (i 1).val := by
  unfold DotDims.rhsIdx
  rw [dif_neg (show ¬(1 : Fin S128x128.rank) ∈ dot_S96x128_S128x128_S96x128_1_0_0_1_n_n.rhsBatch by decide), dif_pos (show (1 : Fin S128x128.rank) ∈ dot_S96x128_S128x128_S96x128_1_0_0_1_n_n.rhsNonContracting by decide)]
  rfl

/-- The node embeddings times a [128, 128] block: entry (n, k) is the sum over the 128 embedding channels. -/
theorem nodeDot_apply (l : FVec Ideal S256x128 .f32) (r : FVec Ideal S128x128 .f32) (n : Fin 256) (k : Fin 128) :
    Host.dotGeneral dot_S256x128_S128x128_S256x128_1_0_0_1_n_n none l r (ix2 n k) = ∑ h : Fin 128, l (ix2 n h) * r (ix2 h k) := by
  simp only [Host.dotGeneral]
  rw [Ideal.dotGeneral_apply, ← Equiv.sum_comp (ValueIdx.contrEquiv1 dot_S256x128_S128x128_S256x128_1_0_0_1_n_n 128 rfl rfl).symm]
  refine Finset.sum_congr rfl fun q _ => ?_
  have hq := ValueIdx.contrEquiv1_symm_val dot_S256x128_S128x128_S256x128_1_0_0_1_n_n 128 rfl rfl q
  have el : dot_S256x128_S128x128_S256x128_1_0_0_1_n_n.lhsIdx (ix2 n k) ((ValueIdx.contrEquiv1 dot_S256x128_S128x128_S256x128_1_0_0_1_n_n 128 rfl rfl).symm q) = ix2 n q := funext fun a => Fin.ext (by
    match a with
    | ⟨0, _⟩ => exact nodeDot_lhs_0 _ _
    | ⟨1, _⟩ => exact (nodeDot_lhs_1 _ _).trans hq)
  have er : dot_S256x128_S128x128_S256x128_1_0_0_1_n_n.rhsIdx (ix2 n k) ((ValueIdx.contrEquiv1 dot_S256x128_S128x128_S256x128_1_0_0_1_n_n 128 rfl rfl).symm q) = ix2 q k := funext fun a => Fin.ext (by
    match a with
    | ⟨0, _⟩ => exact (nodeDot_rhs_0 _ _).trans hq
    | ⟨1, _⟩ => exact nodeDot_rhs_1 _ _)
  rw [el, er]

/-- The time embeddings times a [128, 128] block: entry (t, k) is the sum over the 128 embedding channels. -/
theorem timeDot_apply (l : FVec Ideal S96x128 .f32) (r : FVec Ideal S128x128 .f32) (n : Fin 96) (k : Fin 128) :
    Host.dotGeneral dot_S96x128_S128x128_S96x128_1_0_0_1_n_n none l r (ix2 n k) = ∑ h : Fin 128, l (ix2 n h) * r (ix2 h k) := by
  simp only [Host.dotGeneral]
  rw [Ideal.dotGeneral_apply, ← Equiv.sum_comp (ValueIdx.contrEquiv1 dot_S96x128_S128x128_S96x128_1_0_0_1_n_n 128 rfl rfl).symm]
  refine Finset.sum_congr rfl fun q _ => ?_
  have hq := ValueIdx.contrEquiv1_symm_val dot_S96x128_S128x128_S96x128_1_0_0_1_n_n 128 rfl rfl q
  have el : dot_S96x128_S128x128_S96x128_1_0_0_1_n_n.lhsIdx (ix2 n k) ((ValueIdx.contrEquiv1 dot_S96x128_S128x128_S96x128_1_0_0_1_n_n 128 rfl rfl).symm q) = ix2 n q := funext fun a => Fin.ext (by
    match a with
    | ⟨0, _⟩ => exact timeDot_lhs_0 _ _
    | ⟨1, _⟩ => exact (timeDot_lhs_1 _ _).trans hq)
  have er : dot_S96x128_S128x128_S96x128_1_0_0_1_n_n.rhsIdx (ix2 n k) ((ValueIdx.contrEquiv1 dot_S96x128_S128x128_S96x128_1_0_0_1_n_n 128 rfl rfl).symm q) = ix2 q k := funext fun a => Fin.ext (by
    match a with
    | ⟨0, _⟩ => exact (timeDot_rhs_0 _ _).trans hq
    | ⟨1, _⟩ => exact timeDot_rhs_1 _ _)
  rw [el, er]

/-! ## A block of rows of the stacked weights -/

/-- The block of 128 rows starting at row `o` of the [384, 128] matrix, at `(h, k)`, is the matrix at `(o + h, k)`. -/
theorem rows_apply (o : Nat) (W : FVec Ideal S384x128 .f32) (hs : S384x128.Slices ![o, 0] S128x128) (h k : Fin 128)
    (r : Fin 384) (hr : r.val = o + h.val) :
    extractStridedSlice S128x128 ![o, 0] W hs (ix2 h k) = W (ix2 r k) :=
  extractStridedSlice_apply ![o, 0] W hs (ix2 h k) (ix2 r k) (fun a => match a with
    | ⟨0, _⟩ => by show r.val = o + h.val; exact hr
    | ⟨1, _⟩ => by show k.val = 0 + k.val; omega)

/-! ## The arrays at region entry -/

variable (m : (ℓ : Loc nD τ sig) → Buf (Elt Ideal) ℓ)

/-- The nine argument arrays of core `c`, each at its literal type. -/
abbrev argX (c : Dev nD) : FVec Ideal S16x256x96 .f32 := m ((c : Thread nD τ).loc main_arg0)
abbrev argWp (c : Dev nD) : FVec Ideal S96x128 .f32 := m ((c : Thread nD τ).loc main_arg1)
abbrev argBp (c : Dev nD) : FVec Ideal S128 .f32 := m ((c : Thread nD τ).loc main_arg2)
abbrev argWf (c : Dev nD) : FVec Ideal S384x128 .f32 := m ((c : Thread nD τ).loc main_arg3)
abbrev argBf (c : Dev nD) : FVec Ideal S128 .f32 := m ((c : Thread nD τ).loc main_arg4)
abbrev argGamma (c : Dev nD) : FVec Ideal S128 .f32 := m ((c : Thread nD τ).loc main_arg5)
abbrev argBeta (c : Dev nD) : FVec Ideal S128 .f32 := m ((c : Thread nD τ).loc main_arg6)
abbrev argNE (c : Dev nD) : FVec Ideal S256x128 .f32 := m ((c : Thread nD τ).loc main_arg7)
abbrev argTE (c : Dev nD) : FVec Ideal S96x128 .f32 := m ((c : Thread nD τ).loc main_arg8)

theorem v8_eq (c : Dev nD) : (V m c main_v8 : FVec Ideal S1x128 .f32) = shapeCast S1x128 (argBp m c) shapeCasts_S128_S1x128 := by
  dsimp only [Gen.V, Gen.hostOps0]; after_results <;> rfl

theorem v9_eq (c : Dev nD) : (V m c main_v9 : FVec Ideal S1x128 .f32) = shapeCast S1x128 (argGamma m c) shapeCasts_S128_S1x128 := by
  dsimp only [Gen.V, Gen.hostOps0]; after_results <;> rfl

theorem v10_eq (c : Dev nD) : (V m c main_v10 : FVec Ideal S1x128 .f32) = shapeCast S1x128 (argBeta m c) shapeCasts_S128_S1x128 := by
  dsimp only [Gen.V, Gen.hostOps0]; after_results <;> rfl

theorem v0_eq (c : Dev nD) : (V m c main_v0 : FVec Ideal S128x128 .f32)
    = extractStridedSlice S128x128 ![0, 0] (argWf m c) slices_S384x128_S128x128_0_0 := by
  dsimp only [Gen.V, Gen.hostOps0]; after_results <;> rfl

theorem v3_eq (c : Dev nD) : (V m c main_v3 : FVec Ideal S256x128 .f32)
    = Host.dotGeneral (F := Ideal) dot_S256x128_S128x128_S256x128_1_0_0_1_n_n none (argNE m c)
        (extractStridedSlice S128x128 ![128, 0] (argWf m c) slices_S384x128_S128x128_128_0) := by
  dsimp only [Gen.V, Gen.hostOps0]; after_results <;> rfl

theorem v7_eq (c : Dev nD) : (V m c main_v7 : FVec Ideal S96x128 .f32)
    = addf (F := Ideal) (Host.dotGeneral (F := Ideal) dot_S96x128_S128x128_S96x128_1_0_0_1_n_n none (argTE m c)
          (extractStridedSlice S128x128 ![256, 0] (argWf m c) slices_S384x128_S128x128_256_0))
        (broadcastInDim S96x128 ![0, 1] bcast_S1x128_S96x128_0_1 (broadcastInDim S1x128 ![1] bcast_S128_S1x128_1 (argBf m c))) := by
  dsimp only [Gen.V, Gen.hostOps0]; after_results <;> rfl

/-- The projection bias as the region finds it: one row. -/
theorem bias_row (c : Dev nD) (u : Fin 1) (k : Fin 128) : (V m c main_v8 : FVec Ideal S1x128 .f32) (ix2 u k) = (argBp m c) (ix1 k) := by
  rw [v8_eq]; exact shapeCast_a_1a_apply _ _ u k

/-- The scale as the region finds it: one row. -/
theorem scale_row (c : Dev nD) (u : Fin 1) (k : Fin 128) : (V m c main_v9 : FVec Ideal S1x128 .f32) (ix2 u k) = (argGamma m c) (ix1 k) := by
  rw [v9_eq]; exact shapeCast_a_1a_apply _ _ u k

/-- The shift as the region finds it: one row. -/
theorem shift_row (c : Dev nD) (u : Fin 1) (k : Fin 128) : (V m c main_v10 : FVec Ideal S1x128 .f32) (ix2 u k) = (argBeta m c) (ix1 k) := by
  rw [v10_eq]; exact shapeCast_a_1a_apply _ _ u k

/-- The first weight block as the region finds it: rows `0 … 127` of the stacked weights. -/
theorem weight_block (c : Dev nD) (h k : Fin 128) : (V m c main_v0 : FVec Ideal S128x128 .f32) (ix2 h k) = (argWf m c) (ix2 (rowA h) k) := by
  rw [v0_eq]; exact rows_apply 0 _ _ h k (rowA h) (by show h.val = 0 + h.val; omega)

/-- The nodes' term as the region finds it. -/
theorem node_entry (c : Dev nD) (n : Fin 256) (k : Fin 128) :
    (V m c main_v3 : FVec Ideal S256x128 .f32) (ix2 n k) = nodeTerm (argWf m c) (argNE m c) n k := by
  rw [v3_eq]
  refine (nodeDot_apply _ _ n k).trans ?_
  unfold nodeTerm
  exact Finset.sum_congr rfl fun h _ => congrArg (argNE m c (ix2 n h) * ·) (rows_apply 128 _ _ h k (rowB h) rfl)

/-- The time steps' term as the region finds it. -/
theorem time_entry (c : Dev nD) (t : Fin 96) (k : Fin 128) :
    (V m c main_v7 : FVec Ideal S96x128 .f32) (ix2 t k) = timeTerm (argWf m c) (argBf m c) (argTE m c) t k := by
  rw [v7_eq, addf_apply, timeDot_apply]
  unfold timeTerm
  refine congrArg₂ (· + ·) (Finset.sum_congr rfl fun h _ => congrArg (_ * ·) (rows_apply 256 _ _ h k (rowC h) rfl)) ?_
  refine (broadcastInDim_apply _ bcast_S1x128_S96x128_0_1 _ (ix2 t k) (ix2 (0 : Fin 1) k) (fun a => match a with
    | ⟨0, _⟩ => by show 0 = if (1 : Nat) = 1 then 0 else t.val; rw [if_pos rfl]
    | ⟨1, _⟩ => by show k.val = if (128 : Nat) = 1 then 0 else k.val; rw [if_neg (by decide)])).trans ?_
  exact broadcastInDim_apply _ bcast_S128_S1x128_1 _ (ix2 (0 : Fin 1) k) (ix1 k) (fun a => match a with
    | ⟨0, _⟩ => by show k.val = if (128 : Nat) = 1 then 0 else k.val; rw [if_neg (by decide)])

end Cert.KernelIdeal.Entry

end
-- ==== Proof.KernelArray.lean ====
/-
  From blocks to the array.

  The grid has 16 × 2 points; at point (b, q) the kernel sees batch entry `b`, nodes `128 q … 128 q + 127`,
  and writes back block (b, q) of the output. Every other window either moves with it (the input rows
  and the nodes' term) or stays on its one block. So what point `t` writes back is block `t` of the
  specification's output array over the argument arrays, the 32 blocks tile the output, and after the
  run the output array is the specification's.
-/
import proofs.«154208_j19224273616920_2_alg».proof.Proof.Gen.KernelIdeal.Value
import proofs.«154208_j19224273616920_2_alg».proof.Proof.KernelBody
import proofs.«154208_j19224273616920_2_alg».proof.Proof.HostGlue

noncomputable section

namespace Cert.KernelIdeal.Whole

open Cert.KernelIdeal Cert.KernelIdeal.Gen Cert.KernelIdeal.Value Idealize.ShloMosaic Idealize.ShloMosaic.TcCoe
open Idealize.SL.Sem Idealize.ShloMosaic.ValueIdx Cert.LayerSpec Cert.RowMoments Cert.KernelIdeal.Entry
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The specification's output over core `c`'s argument arrays. -/
abbrev result (c : Dev nD) : FVec Ideal S16x256x96x128 .f32 :=
  Cert.LayerSpec.out (argX m c) (argWp m c) (argBp m c) (argWf m c) (argBf m c) (argGamma m c) (argBeta m c)
    (argNE m c) (argTE m c)

/-! ## The index maps over the grid -/

/-- Decided over the 32 points: the input rows and the nodes' term move with the output's block, the
    other windows stay on block zero, and the output's block indices stay in range. -/
theorem idx_facts : ∀ t : Fin cfg0.N,
    win0_0.index t (0 : Fin 3) = win0_8.index t (0 : Fin 4) ∧ win0_0.index t (1 : Fin 3) = win0_8.index t (1 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = win0_8.index t (1 : Fin 4) ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 4) ≤ 15 ∧ win0_8.index t (1 : Fin 4) ≤ 1
    ∧ win0_8.index t (2 : Fin 4) = 0 ∧ win0_8.index t (3 : Fin 4) = 0 :=
  (by decide +kernel : ∀ t : Fin grid0.N, _)

/-- Every block (b, q) of the output is some point's. -/
theorem idx_onto : ∀ (q0 : Fin 16) (q1 : Fin 2), ∃ t : Fin cfg0.N, win0_8.index t = ![q0.val, q1.val, 0, 0] :=
  (by decide +kernel : ∀ (q0 : Fin 16) (q1 : Fin 2), ∃ t : Fin grid0.N, win0_8.index t = ![q0.val, q1.val, 0, 0])

/-- The batch entry and the node that point `t`'s block row `p` stands for. -/
def batchOf (t : Fin cfg0.N) : Fin 16 := ⟨win0_8.index t (0 : Fin 4), by have := (idx_facts t).2.2.2.2.2.2.2.2.2.2.2.2.2.2.2.2.2.1; omega⟩
def nodeOf (t : Fin cfg0.N) (p : Fin 128) : Fin 256 :=
  ⟨win0_8.index t (1 : Fin 4) * 128 + p.val, by have := (idx_facts t).2.2.2.2.2.2.2.2.2.2.2.2.2.2.2.2.2.2.1; have := p.isLt; omega⟩

/-! ## Where each window's block sits in its array -/

theorem emb0 (t : Fin cfg0.N) (u : Fin 1) (p : Fin 128) (j : Fin 96) :
    ((cfg0.win 0).blk t).view.emb (ix3 u p j) = (ix3 (batchOf t) (nodeOf t p) j : S16x256x96.Idx) := by
  obtain ⟨e00, e01, e02, e10, e11, e20, e21, e30, e31, e40, e41, e50, e51, e60, e61, e70, e71, b0, b1, e82, e83⟩ := idx_facts t
  funext a
  apply Fin.ext
  match a with
  | ⟨0, _⟩ => show win0_0.index t (0 : Fin 3) * 1 + 1 * u.val = win0_8.index t (0 : Fin 4); omega
  | ⟨1, _⟩ => show win0_0.index t (1 : Fin 3) * 128 + 1 * p.val = win0_8.index t (1 : Fin 4) * 128 + p.val; omega
  | ⟨2, _⟩ => show win0_0.index t (2 : Fin 3) * 96 + 1 * j.val = j.val; omega

theorem emb1 (t : Fin cfg0.N) (j : Fin 96) (h : Fin 128) :
    ((cfg0.win 1).blk t).view.emb (ix2 j h) = (ix2 j h : S96x128.Idx) := by
  obtain ⟨e00, e01, e02, e10, e11, e20, e21, e30, e31, e40, e41, e50, e51, e60, e61, e70, e71, b0, b1, e82, e83⟩ := idx_facts t
  funext a
  apply Fin.ext
  match a with
  | ⟨0, _⟩ => show win0_1.index t (0 : Fin 2) * 96 + 1 * j.val = j.val; omega
  | ⟨1, _⟩ => show win0_1.index t (1 : Fin 2) * 128 + 1 * h.val = h.val; omega

theorem emb2 (t : Fin cfg0.N) (u : Fin 1) (h : Fin 128) :
    ((cfg0.win 2).blk t).view.emb (ix2 u h) = (ix2 u h : S1x128.Idx) := by
  obtain ⟨e00, e01, e02, e10, e11, e20, e21, e30, e31, e40, e41, e50, e51, e60, e61, e70, e71, b0, b1, e82, e83⟩ := idx_facts t
  funext a
  apply Fin.ext
  match a with
  | ⟨0, _⟩ => show win0_2.index t (0 : Fin 2) * 1 + 1 * u.val = u.val; omega
  | ⟨1, _⟩ => show win0_2.index t (1 : Fin 2) * 128 + 1 * h.val = h.val; omega

theorem emb3 (t : Fin cfg0.N) (h k : Fin 128) :
    ((cfg0.win 3).blk t).view.emb (ix2 h k) = (ix2 h k : S128x128.Idx) := by
  obtain ⟨e00, e01, e02, e10, e11, e20, e21, e30, e31, e40, e41, e50, e51, e60, e61, e70, e71, b0, b1, e82, e83⟩ := idx_facts t
  funext a
  apply Fin.ext
  match a with
  | ⟨0, _⟩ => show win0_3.index t (0 : Fin 2) * 128 + 1 * h.val = h.val; omega
  | ⟨1, _⟩ => show win0_3.index t (1 : Fin 2) * 128 + 1 * k.val = k.val; omega

theorem emb4 (t : Fin cfg0.N) (p k : Fin 128) :
    ((cfg0.win 4).blk t).view.emb (ix2 p k) = (ix2 (nodeOf t p) k : S256x128.Idx) := by
  obtain ⟨e00, e01, e02, e10, e11, e20, e21, e30, e31, e40, e41, e50, e51, e60, e61, e70, e71, b0, b1, e82, e83⟩ := idx_facts t
  funext a
  apply Fin.ext
  match a with
  | ⟨0, _⟩ => show win0_4.index t (0 : Fin 2) * 128 + 1 * p.val = win0_8.index t (1 : Fin 4) * 128 + p.val; omega
  | ⟨1, _⟩ => show win0_4.index t (1 : Fin 2) * 128 + 1 * k.val = k.val; omega

theorem emb5 (t : Fin cfg0.N) (tt : Fin 96) (k : Fin 128) :
    ((cfg0.win 5).blk t).view.emb (ix2 tt k) = (ix2 tt k : S96x128.Idx) := by
  obtain ⟨e00, e01, e02, e10, e11, e20, e21, e30, e31, e40, e41, e50, e51, e60, e61, e70, e71, b0, b1, e82, e83⟩ := idx_facts t
  funext a
  apply Fin.ext
  match a with
  | ⟨0, _⟩ => show win0_5.index t (0 : Fin 2) * 96 + 1 * tt.val = tt.val; omega
  | ⟨1, _⟩ => show win0_5.index t (1 : Fin 2) * 128 + 1 * k.val = k.val; omega

theorem emb6 (t : Fin cfg0.N) (u : Fin 1) (k : Fin 128) :
    ((cfg0.win 6).blk t).view.emb (ix2 u k) = (ix2 u k : S1x128.Idx) := by
  obtain ⟨e00, e01, e02, e10, e11, e20, e21, e30, e31, e40, e41, e50, e51, e60, e61, e70, e71, b0, b1, e82, e83⟩ := idx_facts t
  funext a
  apply Fin.ext
  match a with
  | ⟨0, _⟩ => show win0_6.index t (0 : Fin 2) * 1 + 1 * u.val = u.val; omega
  | ⟨1, _⟩ => show win0_6.index t (1 : Fin 2) * 128 + 1 * k.val = k.val; omega

theorem emb7 (t : Fin cfg0.N) (u : Fin 1) (k : Fin 128) :
    ((cfg0.win 7).blk t).view.emb (ix2 u k) = (ix2 u k : S1x128.Idx) := by
  obtain ⟨e00, e01, e02, e10, e11, e20, e21, e30, e31, e40, e41, e50, e51, e60, e61, e70, e71, b0, b1, e82, e83⟩ := idx_facts t
  funext a
  apply Fin.ext
  match a with
  | ⟨0, _⟩ => show win0_7.index t (0 : Fin 2) * 1 + 1 * u.val = u.val; omega
  | ⟨1, _⟩ => show win0_7.index t (1 : Fin 2) * 128 + 1 * k.val = k.val; omega

theorem emb8 (t : Fin cfg0.N) (u : Fin 1) (p : Fin 128) (tt : Fin 96) (k : Fin 128) :
    ((cfg0.win 8).blk t).view.emb (ix4 u p tt k) = (ix4 (batchOf t) (nodeOf t p) tt k : S16x256x96x128.Idx) := by
  obtain ⟨e00, e01, e02, e10, e11, e20, e21, e30, e31, e40, e41, e50, e51, e60, e61, e70, e71, b0, b1, e82, e83⟩ := idx_facts t
  funext a
  apply Fin.ext
  match a with
  | ⟨0, _⟩ => show win0_8.index t (0 : Fin 4) * 1 + 1 * u.val = win0_8.index t (0 : Fin 4); omega
  | ⟨1, _⟩ => show win0_8.index t (1 : Fin 4) * 128 + 1 * p.val = win0_8.index t (1 : Fin 4) * 128 + p.val; omega
  | ⟨2, _⟩ => show win0_8.index t (2 : Fin 4) * 96 + 1 * tt.val = tt.val; omega
  | ⟨3, _⟩ => show win0_8.index t (3 : Fin 4) * 128 + 1 * k.val = k.val; omega

/-! ## The blocks the body loads, as entries of the argument arrays -/

section Blocks

variable (c : Dev nD) (t : Fin cfg0.N)

/-- The input rows. -/
theorem blk0 (u : Fin 1) (p : Fin 128) (j : Fin 96) :
    (iblk m c 0 t : FVec Ideal S1x128x96 .f32) (ix3 u p j) = argX m c (ix3 (batchOf t) (nodeOf t p) j) := by
  unfold iblk
  rw [View.read_apply]
  show V m c main_arg0 (((cfg0.win 0).blk t).view.emb (ix3 u p j)) = _
  rw [emb0, V_main_arg0]

/-- The projection. -/
theorem blk1 (j : Fin 96) (h : Fin 128) :
    (iblk m c 1 t : FVec Ideal S96x128 .f32) (ix2 j h) = argWp m c (ix2 j h) := by
  unfold iblk
  rw [View.read_apply]
  show V m c main_arg1 (((cfg0.win 1).blk t).view.emb (ix2 j h)) = _
  rw [emb1, V_main_arg1]

/-- The projection bias. -/
theorem blk2 (u : Fin 1) (h : Fin 128) :
    (iblk m c 2 t : FVec Ideal S1x128 .f32) (ix2 u h) = argBp m c (ix1 h) := by
  unfold iblk
  rw [View.read_apply]
  show (V m c main_v8 : FVec Ideal S1x128 .f32) (((cfg0.win 2).blk t).view.emb (ix2 u h)) = _
  rw [emb2]; exact bias_row m c u h

/-- The first weight block. -/
theorem blk3 (h k : Fin 128) :
    (iblk m c 3 t : FVec Ideal S128x128 .f32) (ix2 h k) = argWf m c (ix2 (rowA h) k) := by
  unfold iblk
  rw [View.read_apply]
  show (V m c main_v0 : FVec Ideal S128x128 .f32) (((cfg0.win 3).blk t).view.emb (ix2 h k)) = _
  rw [emb3]; exact weight_block m c h k

/-- The nodes' term. -/
theorem blk4 (p k : Fin 128) :
    (iblk m c 4 t : FVec Ideal S128x128 .f32) (ix2 p k) = nodeTerm (argWf m c) (argNE m c) (nodeOf t p) k := by
  unfold iblk
  rw [View.read_apply]
  show (V m c main_v3 : FVec Ideal S256x128 .f32) (((cfg0.win 4).blk t).view.emb (ix2 p k)) = _
  rw [emb4]; exact node_entry m c (nodeOf t p) k

/-- The time steps' term. -/
theorem blk5 (tt : Fin 96) (k : Fin 128) :
    (iblk m c 5 t : FVec Ideal S96x128 .f32) (ix2 tt k) = timeTerm (argWf m c) (argBf m c) (argTE m c) tt k := by
  unfold iblk
  rw [View.read_apply]
  show (V m c main_v7 : FVec Ideal S96x128 .f32) (((cfg0.win 5).blk t).view.emb (ix2 tt k)) = _
  rw [emb5]; exact time_entry m c tt k

/-- The scale. -/
theorem blk6 (u : Fin 1) (k : Fin 128) :
    (iblk m c 6 t : FVec Ideal S1x128 .f32) (ix2 u k) = argGamma m c (ix1 k) := by
  unfold iblk
  rw [View.read_apply]
  show (V m c main_v9 : FVec Ideal S1x128 .f32) (((cfg0.win 6).blk t).view.emb (ix2 u k)) = _
  rw [emb6]; exact scale_row m c u k

/-- The shift. -/
theorem blk7 (u : Fin 1) (k : Fin 128) :
    (iblk m c 7 t : FVec Ideal S1x128 .f32) (ix2 u k) = argBeta m c (ix1 k) := by
  unfold iblk
  rw [View.read_apply]
  show (V m c main_v10 : FVec Ideal S1x128 .f32) (((cfg0.win 7).blk t).view.emb (ix2 u k)) = _
  rw [emb7]; exact shift_row m c u k

end Blocks

/-! ## What a point writes back, the cover, the run -/

/-- Point `t` writes back block `t` of the specification's output. -/
theorem flushed_eq (c : Dev nD) (t : Fin cfg0.N) :
    (dats m 0 c).flushed 8 t = ((cfg0.win 8).blk t).view.read (Elt Ideal) (result m c) := by
  rw [Value.flushed8]
  unfold out0_8
  rw [View.canon_unit_zero hz4]
  simp only [View.ld_unit_zero (S := S1x128x96) hz3, View.ld_unit_zero (S := S96x128) hz2,
    View.ld_unit_zero (S := S1x128) hz2, View.ld_unit_zero (S := S128x128) hz2]
  funext y
  obtain ⟨u, p, tt, k, rfl⟩ : ∃ (u : Fin 1) (p : Fin 128) (tt : Fin 96) (k : Fin 128), y = ix4 u p tt k :=
    ⟨y 0, y 1, y 2, y 3, eq_ix4 y⟩
  show k0_pay1 (F := Ideal) (k0_pay2 (iblk m c 0 t) (iblk m c 1 t) (iblk m c 2 t) (iblk m c 3 t) (iblk m c 4 t) (iblk m c 5 t))
      (k0_pay3 (iblk m c 0 t) (iblk m c 1 t) (iblk m c 2 t) (iblk m c 3 t) (iblk m c 4 t) (iblk m c 5 t))
      (k0_pay4 (iblk m c 0 t) (iblk m c 1 t) (iblk m c 2 t) (iblk m c 3 t) (iblk m c 4 t) (iblk m c 5 t))
      (Scalar.ofBits .f32 0x3727C5AC#32) (iblk m c 6 t) (iblk m c 7 t) (ix4 u p tt k)
    = result m c (((cfg0.win 8).blk t).view.emb (ix4 u p tt k))
  rw [emb8]
  refine (Body.store_apply (iblk m c 0 t) (iblk m c 1 t) (iblk m c 2 t) (iblk m c 3 t) (iblk m c 4 t) (iblk m c 5 t)
    (iblk m c 6 t) (iblk m c 7 t) u p tt k).trans ?_
  show _ = outAt (argX m c) (argWp m c) (argBp m c) (argWf m c) (argBf m c) (argGamma m c) (argBeta m c)
    (argNE m c) (argTE m c) (batchOf t) (nodeOf t p) tt k
  unfold outAt hiddenRow Body.hrow
  simp only [blk0 m c t, blk1 m c t, blk2 m c t, blk3 m c t, blk4 m c t, blk5 m c t, blk6 m c t, blk7 m c t]

/-- An index of the output is in point `t`'s block iff each coordinate is in the block's range. -/
theorem mem_blk (t : Fin cfg0.N) (i : S16x256x96x128.Idx) :
    i ∈ ((cfg0.win 8).blk t).view.set ↔ ∀ a : Fin 4, win0_8.index t a * S1x128x96x128.size a ≤ (i a).val
      ∧ (i a).val < win0_8.index t a * S1x128x96x128.size a + S1x128x96x128.size a := by
  show i ∈ ((View.whole main_v11).slice (win0_8.rect t)).set ↔ _
  rw [View.set_slice_whole, Rect.mem_set_unit]
  exact Iff.rfl

/-- The 32 blocks tile the output. -/
theorem cover (i : S16x256x96x128.Idx) :
    ∃ t : Fin cfg0.N, (cfg0.win 8).flush t = true ∧ i ∈ ((cfg0.win 8).blk t).view.set := by
  have hi0 : (i 0).val < 16 := (i 0).isLt
  have hi1 : (i 1).val < 256 := (i 1).isLt
  have hi2 : (i 2).val < 96 := (i 2).isLt
  have hi3 : (i 3).val < 128 := (i 3).isLt
  obtain ⟨t, ht⟩ := idx_onto ⟨(i 0).val, hi0⟩ ⟨(i 1).val / 128, by omega⟩
  have q0 : win0_8.index t (0 : Fin 4) = (i 0).val := congrFun ht 0
  have q1 : win0_8.index t (1 : Fin 4) = (i 1).val / 128 := congrFun ht 1
  have q2 : win0_8.index t (2 : Fin 4) = 0 := congrFun ht 2
  have q3 : win0_8.index t (3 : Fin 4) = 0 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 128 ≤ (i 1).val ∧ (i 1).val < win0_8.index t (1 : Fin 4) * 128 + 128; omega
  | ⟨2, _⟩ => show win0_8.index t (2 : Fin 4) * 96 ≤ (i 2).val ∧ (i 2).val < win0_8.index t (2 : Fin 4) * 96 + 96; omega
  | ⟨3, _⟩ => show win0_8.index t (3 : Fin 4) * 128 ≤ (i 3).val ∧ (i 3).val < win0_8.index t (3 : Fin 4) * 128 + 128; omega

/-- After the run the output array is the specification's. -/
theorem final (c : Dev nD) : (dats m 0 c).arrAt 8 cfg0.N = result m c :=
  (dats m 0 c).arrAt_eq_of_cover 8 (result m c) (fun t _ => flushed_eq m c t) cover

/-- The kernel's run: it terminates with the output at the specification's array and the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.RefSide.lean ====
/-
  The reference, read at an index.

  The reference forms the same hidden activations with the four contributions added one after the
  other, `((a + u) + v) + bias`, where the specification groups them `(a + u) + (v + bias)`: addition
  on the extended reals is associative, so the two are one number (`hidden_apply`). It then takes the
  row's mean as a quotient by 128 and its variance as the mean of the squared deviations, which is the
  specification's `normedDev`; for real inputs the row is a row of real numbers and `normedDev` is
  `normed` (`out_apply`, `result_eq`).
-/
import proofs.«154208_j19224273616920_2_alg».proof.Proof.Gen.ReferenceIdeal.Read
import proofs.«154208_j19224273616920_2_alg».proof.Proof.LayerSpec

noncomputable section

namespace Cert.ReferenceIdeal.RefValue

open Cert.ReferenceIdeal Cert.ReferenceIdeal.Read Idealize.ShloMosaic Idealize.ShloMosaic.ValueIdx
open Cert.LayerSpec Cert.RowMoments

/-! ## The composed index maps, as coordinates -/

section Indices

variable (b : Fin 16) (n : Fin 256) (t : Fin 96) (k : Fin 128)

theorem ix_x (h : Fin 128) (j : Fin 96) : lidx_main_v0 (lidx_main_v7 (idx_main_v8 (idx_main_v15 (ix4 b n t k))) h) j = ix3 b n j :=
  funext fun a => Fin.ext (by match a with | ⟨0, _⟩ => rfl | ⟨1, _⟩ => rfl | ⟨2, _⟩ => rfl)

theorem ix_wp (h : Fin 128) (j : Fin 96) : ridx_main_v0 (lidx_main_v7 (idx_main_v8 (idx_main_v15 (ix4 b n t k))) h) j = ix2 j h :=
  funext fun a => Fin.ext (by match a with | ⟨0, _⟩ => rfl | ⟨1, _⟩ => rfl)

theorem ix_bp (h : Fin 128) : idx_main_v1 (idx_main_v2 (lidx_main_v7 (idx_main_v8 (idx_main_v15 (ix4 b n t k))) h)) = ix1 h :=
  funext fun a => Fin.ext (by match a with | ⟨0, _⟩ => rfl)

theorem ix_w1 (h : Fin 128) : idx_main_v4 (ridx_main_v7 (idx_main_v8 (idx_main_v15 (ix4 b n t k))) h) = ix2 (rowA h) k :=
  funext fun a => Fin.ext (by match a with | ⟨0, _⟩ => rfl | ⟨1, _⟩ => rfl)

theorem ix_ne (h : Fin 128) : lidx_main_v9 (idx_main_v10 (idx_main_v11 (idx_main_v15 (ix4 b n t k)))) h = ix2 n h :=
  funext fun a => Fin.ext (by match a with | ⟨0, _⟩ => rfl | ⟨1, _⟩ => rfl)

theorem ix_w2 (h : Fin 128) : idx_main_v5 (ridx_main_v9 (idx_main_v10 (idx_main_v11 (idx_main_v15 (ix4 b n t k)))) h) = ix2 (rowB h) k :=
  funext fun a => Fin.ext (by match a with | ⟨0, _⟩ => rfl | ⟨1, _⟩ => rfl)

theorem ix_te (h : Fin 128) : lidx_main_v13 (idx_main_v14 (idx_main_v16 (ix4 b n t k))) h = ix2 t h :=
  funext fun a => Fin.ext (by match a with | ⟨0, _⟩ => rfl | ⟨1, _⟩ => rfl)

theorem ix_w3 (h : Fin 128) : idx_main_v6 (ridx_main_v13 (idx_main_v14 (idx_main_v16 (ix4 b n t k))) h) = ix2 (rowC h) k :=
  funext fun a => Fin.ext (by match a with | ⟨0, _⟩ => rfl | ⟨1, _⟩ => rfl)

theorem ix_bf  : idx_main_v18 (idx_main_v19 (ix4 b n t k)) = ix1 k :=
  funext fun a => Fin.ext (by match a with | ⟨0, _⟩ => rfl)

theorem ix_row_mean (k' : Fin 128) : idx_main_v22 (idx_main_v23 (idx_main_v33 (ix4 b n t k))) k' = ix4 b n t k' :=
  funext fun a => Fin.ext (by match a with | ⟨0, _⟩ => rfl | ⟨1, _⟩ => rfl | ⟨2, _⟩ => rfl | ⟨3, _⟩ => rfl)

theorem ix_row_dev (k' : Fin 128) : idx_main_v29 (idx_main_v30 (idx_main_v38 (ix4 b n t k))) k' = ix4 b n t k' :=
  funext fun a => Fin.ext (by match a with | ⟨0, _⟩ => rfl | ⟨1, _⟩ => rfl | ⟨2, _⟩ => rfl | ⟨3, _⟩ => rfl)

theorem ix_row_mean' (k' : Fin 128) : idx_main_v22 (idx_main_v23 (idx_main_v26 (ix4 b n t k))) k' = ix4 b n t k' :=
  funext fun a => Fin.ext (by match a with | ⟨0, _⟩ => rfl | ⟨1, _⟩ => rfl | ⟨2, _⟩ => rfl | ⟨3, _⟩ => rfl)

theorem ix_gamma  : idx_main_v40 (idx_main_v41 (ix4 b n t k)) = ix1 k :=
  funext fun a => Fin.ext (by match a with | ⟨0, _⟩ => rfl)

theorem ix_beta  : idx_main_v43 (idx_main_v44 (ix4 b n t k)) = ix1 k :=
  funext fun a => Fin.ext (by match a with | ⟨0, _⟩ => rfl)

end Indices

/-! ## The values -/

variable (x0 : FVec Ideal S16x256x96 .f32) (x1 : FVec Ideal S96x128 .f32) (x2 : FVec Ideal S128 .f32)
  (x3 : FVec Ideal S384x128 .f32) (x4 x5 x6 : FVec Ideal S128 .f32) (x7 : FVec Ideal S256x128 .f32)
  (x8 : FVec Ideal S96x128 .f32)

/-- The reference's hidden activation at `(b, n, t, k)` is the specification's. -/
theorem hidden_apply (b : Fin 16) (n : Fin 256) (t : Fin 96) (k : Fin 128) :
    val_main_v21 (F := Ideal) x0 x1 x2 x3 x4 x7 x8 (ix4 b n t k) = hiddenRow x0 x1 x2 x3 x4 x7 x8 b n t k := by
  simp only [val_main_v21_apply, val_main_v20_apply, val_main_v17_apply, val_main_v15_apply, val_main_v12_apply,
    val_main_v8_apply, val_main_v7_apply, val_main_v3_apply, val_main_v0_apply, val_main_v2_apply, val_main_v1_apply,
    val_main_v4_apply, val_main_v11_apply, val_main_v10_apply, val_main_v9_apply, val_main_v5_apply,
    val_main_v16_apply, val_main_v14_apply, val_main_v13_apply, val_main_v6_apply, val_main_v19_apply, val_main_v18_apply,
    val_main_call0_v0_apply, val_main_call0_cst_apply,
    ix_x, ix_wp, ix_bp, ix_w1, ix_ne, ix_w2, ix_te, ix_w3, ix_bf,
    Ideal.maximumf_def, Ideal.addf_def, Ideal.ofBits_def, Ideal.ofBits_zero_f32]
  exact congrArg (fun s => max s 0) (add_assoc _ _ _)

/-- The reference's result at `(b, n, t, k)` is the specification's, when the inputs the hidden
    activations are built from are real numbers. -/
theorem out_apply (h0 : ∀ i, IsReal (x0 i)) (h1 : ∀ i, IsReal (x1 i)) (h2 : ∀ i, IsReal (x2 i))
    (h3 : ∀ i, IsReal (x3 i)) (h4 : ∀ i, IsReal (x4 i)) (h7 : ∀ i, IsReal (x7 i)) (h8 : ∀ i, IsReal (x8 i))
    (b : Fin 16) (n : Fin 256) (t : Fin 96) (k : Fin 128) :
    val_main_v45 (F := Ideal) x0 x1 x2 x3 x4 x5 x6 x7 x8 (ix4 b n t k) = outAt x0 x1 x2 x3 x4 x5 x6 x7 x8 b n t k := by
  have hr : ∀ k', IsReal (hiddenRow x0 x1 x2 x3 x4 x7 x8 b n t k') :=
    hiddenRow_isReal x0 x1 x2 x3 x4 x7 x8 h0 h1 h2 h3 h4 h7 h8 b n t
  unfold outAt
  rw [← normedDev_eq _ hr]
  simp only [val_main_v45_apply, val_main_v44_apply, val_main_v43_apply, val_main_v42_apply, val_main_v41_apply,
    val_main_v40_apply, val_main_v39_apply, val_main_v38_apply, val_main_v37_apply, val_main_v36_apply,
    val_main_v35_apply, val_main_cst_3_apply, val_main_v34_apply, val_main_v33_apply, val_main_v32_apply,
    val_main_v31_apply, val_main_cst_2_apply, val_main_v30_apply, val_main_v29_apply, val_main_cst_1_apply,
    val_main_v28_apply, val_main_v27_apply, val_main_v26_apply, val_main_v25_apply, val_main_v24_apply,
    val_main_cst_0_apply, val_main_v23_apply, val_main_v22_apply, val_main_cst_apply,
    ix_row_mean, ix_row_dev, ix_row_mean', ix_gamma, ix_beta, hidden_apply,
    Ideal.addf_def, Ideal.subf_def, Ideal.mulf_def, Ideal.hostDivf_def, Ideal.hostUnary_rsqrt_def, Ideal.ofBits_def,
    Ideal.ofBits_zero_f32, zero_add]
  rfl

/-- The reference's result array is the specification's output array. -/
theorem result_eq (h0 : ∀ i, IsReal (x0 i)) (h1 : ∀ i, IsReal (x1 i)) (h2 : ∀ i, IsReal (x2 i))
    (h3 : ∀ i, IsReal (x3 i)) (h4 : ∀ i, IsReal (x4 i)) (h7 : ∀ i, IsReal (x7 i)) (h8 : ∀ i, IsReal (x8 i)) :
    val_main_v45 (F := Ideal) x0 x1 x2 x3 x4 x5 x6 x7 x8 = Cert.LayerSpec.out x0 x1 x2 x3 x4 x5 x6 x7 x8 := by
  funext i
  obtain ⟨b, n, t, k, rfl⟩ : ∃ (b : Fin 16) (n : Fin 256) (t : Fin 96) (k : Fin 128), i = ix4 b n t k :=
    ⟨i 0, i 1, i 2, i 3, eq_ix4 i⟩
  exact out_apply x0 x1 x2 x3 x4 x5 x6 x7 x8 h0 h1 h2 h3 h4 h7 h8 b n t k

end Cert.ReferenceIdeal.RefValue

end
-- ==== Proof.FiniteInputs.lean ====
/-
  The precondition says every input is a real number.

  The stated precondition is the conjunction, over the nine input arrays, of "every entry's absolute
  value lies below `+∞`". A conjunction of bits that is 1 has every bit 1; a reduction by `and` that
  is 1 had a 1 at every entry; and an extended real whose absolute value `max x (−x)` lies below `+∞`
  is neither infinity, so it is a real number.
-/
import proofs.«154208_j19224273616920_2_alg».proof.Pre_finite_inputs
import proofs.«154208_j19224273616920_2_alg».proof.Proof.RowMoments
import Idealize.ShloMosaic.Lib.ReduceAll
import Idealize.ShloMosaic.Lib.ValueIdx
import Idealize.ShloMosaic.PureOps.Ideal.Laws

noncomputable section

namespace Cert.FiniteInputs

open Idealize.ShloMosaic Cert.RowMoments Cert.Pre_finite_inputs

variable [Cert.Pre_finite_inputs.Facts]

/-- The scalar shape has one index. -/
instance : Subsingleton S_.Idx := ⟨fun a b => funext fun d => d.elim0⟩

/-- An extended real whose absolute value compares below the word for `+∞` is a real number. -/
theorem isReal_of_cmp (x : EReal)
    (h : Ideal.cmp .olt (max x (-x)) (Ideal.ofBits .f32 0x7F800000#32) = 1#1) : IsReal x := by
  rw [ofBits_inf] at h
  by_cases hlt : max x (-x) < ⊤
  · exact isReal_of_abs_lt_top hlt
  · exfalso
    simp [Ideal.cmp, hlt] at h

/-- One conjunct of the precondition: every entry of the array is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ValueIdx.ix0 = 1#1) (i : s.Idx) : IsReal (a i) :=
  isReal_of_cmp (a i) (Host.reduce_andi_all _ _ hr hu ValueIdx.ix0 e i)

/-- A conjunction of two bits that is 1 has both bits 1. -/
theorem andi_split {x y : IVec S_ 1} (h : andi x y ValueIdx.ix0 = 1#1) :
    x ValueIdx.ix0 = 1#1 ∧ y ValueIdx.ix0 = 1#1 :=
  IntOp.andi_eq_one.1 h

/-- Under the precondition every entry of every input array is a real number. -/
theorem real_of_pre (a0 : FVec Ideal S16x256x96 .f32) (a1 : FVec Ideal S96x128 .f32) (a2 : FVec Ideal S128 .f32)
    (a3 : FVec Ideal S384x128 .f32) (a4 a5 a6 : FVec Ideal S128 .f32) (a7 : FVec Ideal S256x128 .f32)
    (a8 : FVec Ideal S96x128 .f32) (h : fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  have h0 := congrFun h ValueIdx.ix0
  dsimp only [fn, fn_part1, fn_part2] at h0
  obtain ⟨h0, r8⟩ := andi_split h0
  obtain ⟨h0, r7⟩ := andi_split h0
  obtain ⟨h0, r6⟩ := andi_split h0
  obtain ⟨h0, r5⟩ := andi_split h0
  obtain ⟨h0, r4⟩ := andi_split h0
  obtain ⟨h0, r3⟩ := andi_split h0
  obtain ⟨h0, r2⟩ := andi_split h0
  obtain ⟨r0, r1⟩ := andi_split h0
  exact ⟨all_real a0 _ _ _ r0, all_real a1 _ _ _ r1, all_real a2 _ _ _ r2, all_real a3 _ _ _ r3, all_real a4 _ _ _ r4,
    all_real a5 _ _ _ r5, all_real a6 _ _ _ r6, all_real a7 _ _ _ r7, all_real a8 _ _ _ r8⟩

end Cert.FiniteInputs

end
-- ==== Proof.lean ====
/-
  A fused layer — input projection, a linear map over the concatenation of the projected input with a
  node embedding and a time embedding, ReLU, layer normalisation over the 128 channels — computed by one
  kernel over a 16 × 2 grid, against the same layer written with whole-array operations.

  Both compute, for batch `b`, node `n`, time `t`, the row

    h_k = max( Σ_h (Σ_j x[b,n,j]·Wp[j,h] + bp[h])·Wf[h,k] + Σ_h E_node[n,h]·Wf[128+h,k]
               + Σ_h E_time[t,h]·Wf[256+h,k] + bf[k] , 0 )

  and return (h_k − μ)·rsqrt(σ² + ε)·γ_k + β_k. They differ in three places, none of which changes the
  value on real inputs: the kernel adds the time term and the bias first and the rest afterwards
  (addition is associative); it multiplies by 2⁻⁷ where the reference divides by 128 (the same number);
  and it takes σ² as the mean of the squares less the squared mean, cut off at zero, where the
  reference takes the mean of the squared deviations (an identity of real numbers, and the left side
  is never negative). The last needs the row to consist of real numbers, which the precondition — every
  input finite — gives.

  The kernel's side is `KernelIdeal.Whole.run` (the output array is the specification's `out` of the
  argument arrays), the reference's `RefValue.result_eq` over its run, the precondition's reading
  `FiniteInputs.real_of_pre`. The kernel at the word level and its idealisation are the same text read at
  two instances: nothing was rewritten, so `preserves` has nothing to state.
-/
import proofs.«154208_j19224273616920_2_alg».proof.Defs
import proofs.«154208_j19224273616920_2_alg».proof.Proof.Gen.Kernel
import proofs.«154208_j19224273616920_2_alg».proof.Proof.Gen.Kernel.Skeleton
import proofs.«154208_j19224273616920_2_alg».proof.Proof.Gen.Kernel.Launch
import proofs.«154208_j19224273616920_2_alg».proof.Proof.Gen.Kernel.Points
import proofs.«154208_j19224273616920_2_alg».proof.Proof.Gen.Kernel.Frame
import proofs.«154208_j19224273616920_2_alg».proof.Proof.Gen.KernelIdeal
import proofs.«154208_j19224273616920_2_alg».proof.Proof.Gen.KernelIdeal.Skeleton
import proofs.«154208_j19224273616920_2_alg».proof.Proof.Gen.KernelIdeal.Launch
import proofs.«154208_j19224273616920_2_alg».proof.Proof.Gen.KernelIdeal.Points
import proofs.«154208_j19224273616920_2_alg».proof.Proof.Gen.KernelIdeal.Frame
import proofs.«154208_j19224273616920_2_alg».proof.Proof.Gen.ReferenceIdeal
import proofs.«154208_j19224273616920_2_alg».proof.Proof.Gen.Pre_finite_inputs
import proofs.«154208_j19224273616920_2_alg».proof.Proof.Gen.KernelIdeal.Value
import proofs.«154208_j19224273616920_2_alg».proof.Proof.Gen.ReferenceIdeal.Run
import proofs.«154208_j19224273616920_2_alg».proof.Proof.Gen.ReferenceIdeal.Read
import proofs.«154208_j19224273616920_2_alg».proof.Proof.KernelArray
import proofs.«154208_j19224273616920_2_alg».proof.Proof.RefSide
import proofs.«154208_j19224273616920_2_alg».proof.Proof.FiniteInputs
import Idealize.ShloMosaic.Adequacy
import Idealize.ShloMosaic.Init

noncomputable section

namespace Cert.Proof

open Idealize.ShloMosaic Idealize.SL.Sem

/-- The kernel at the word level runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, all finite, the kernel and the reference end with the
    same array: the specification's output of the arguments. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq]
  obtain ⟨a0, a1, a2, a3, a4, a5, a6, a7, a8⟩ := hagree c
  rw [a0, a1, a2, a3, a4, a5, a6, a7, a8]
  obtain ⟨r0, r1, r2, r3, r4, -, -, r7, r8⟩ := Cert.FiniteInputs.real_of_pre _ _ _ _ _ _ _ _ _ (hpre c)
  exact Cert.ReferenceIdeal.RefValue.result_eq _ _ _ _ _ _ _ _ _ r0 r1 r2 r3 r4 r7 r8

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
